-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x2 : Shape := ⟨2, ![1048576, 2]⟩
abbrev S1048576x1 : Shape := ⟨2, ![1048576, 1]⟩
abbrev S_ : Shape := ⟨0, ![]⟩
abbrev S8388608x2 : Shape := ⟨2, ![8388608, 2]⟩
abbrev S2x8388608 : Shape := ⟨2, ![2, 8388608]⟩
abbrev S1x8388608 : Shape := ⟨2, ![1, 8388608]⟩
abbrev S8388608 : Shape := ⟨1, ![8388608]⟩

class Facts : Prop where
  bcast_S_S1048576x2 : S_.BroadcastsInDim S1048576x2 (![] : Fin 0 → Fin S1048576x2.rank)
  reducesTo_S1048576x2_S_d0_1 : S1048576x2.ReducesTo [0, 1] S_
  h_S_ : 0 < S_.numel
  bcast_S_S1048576x1 : S_.BroadcastsInDim S1048576x1 (![] : Fin 0 → Fin S1048576x1.rank)
  reducesTo_S1048576x1_S_d0_1 : S1048576x1.ReducesTo [0, 1] S_
  reducesTo_S_S_d : S_.ReducesTo [] S_
  bcast_S_S8388608x2 : S_.BroadcastsInDim S8388608x2 (![] : Fin 0 → Fin S8388608x2.rank)
  reducesTo_S8388608x2_S_d0_1 : S8388608x2.ReducesTo [0, 1] S_
  slices_S2x8388608_S1x8388608_1_0 : S2x8388608.Slices ![1, 0] S1x8388608
  shapeCasts_S1x8388608_S8388608 : S1x8388608.ShapeCasts S8388608
  bcast_S_S8388608 : S_.BroadcastsInDim S8388608 (![] : Fin 0 → Fin S8388608.rank)
  reducesTo_S8388608_S_d0 : S8388608.ReducesTo [0] S_

variable [Facts]

def fn_part3 {F : FTy → Type} [FloatOps F] (main_arg11 : IVec S2x8388608 32) (main_v49 : IVec S_ 1) : IVec S_ 1 :=
  let main_v50 : IVec S1x8388608 32 := (extractStridedSlice S1x8388608 ![1, 0] · slices_S2x8388608_S1x8388608_1_0) main_arg11
  let main_v51 : IVec S8388608 32 := shapeCast S8388608 main_v50 shapeCasts_S1x8388608_S8388608
  let main_c_20 : IVec S_ 32 := constantI S_ 32 0#32
  let main_v52 : IVec S8388608 32 := broadcastInDim S8388608 ![] bcast_S_S8388608 main_c_20
  let main_v53 : IVec S8388608 1 := cmpi .sge main_v51 main_v52
  let main_v54 : IVec S1x8388608 32 := (extractStridedSlice S1x8388608 ![1, 0] · slices_S2x8388608_S1x8388608_1_0) main_arg11
  let main_v55 : IVec S8388608 32 := shapeCast S8388608 main_v54 shapeCasts_S1x8388608_S8388608
  let main_c_21 : IVec S_ 32 := constantI S_ 32 1048576#32
  let main_v56 : IVec S8388608 32 := broadcastInDim S8388608 ![] bcast_S_S8388608 main_c_21
  let main_v57 : IVec S8388608 1 := cmpi .slt main_v55 main_v56
  let main_v58 : IVec S8388608 1 := andi main_v53 main_v57
  let main_c_22 : IVec S_ 1 := constantI S_ 1 1#1
  let main_v59 : IVec S_ 1 := (fun x v => Host.reduce IntOp.andi x v reducesTo_S8388608_S_d0 h_S_) main_v58 main_c_22
  let main_v60 : IVec S_ 1 := andi main_v49 main_v59
  main_v60

def fn_part2 {F : FTy → Type} [FloatOps F] (main_arg8 : FVec F S_ .f32) (main_arg9 : FVec F S_ .f32) (main_arg10 : FVec F S8388608x2 .f32) (main_arg11 : IVec S2x8388608 32) (main_v32 : IVec S_ 1) (main_v33 : FVec F S_ .f32) : IVec S_ 1 :=
  let main_cst_12 : FVec F S_ .f32 := constant S_ .f32 0x7F800000#32
  let main_v34 : IVec S_ 1 := cmpf .olt main_v33 main_cst_12
  let main_c_13 : IVec S_ 1 := constantI S_ 1 1#1
  let main_v35 : IVec S_ 1 := (fun x v => Host.reduce IntOp.andi x v reducesTo_S_S_d h_S_) main_v34 main_c_13
  let main_v36 : IVec S_ 1 := andi main_v32 main_v35
  let main_v37 : FVec F S_ .f32 := Host.absf main_arg8
  let main_cst_14 : FVec F S_ .f32 := constant S_ .f32 0x7F800000#32
  let main_v38 : IVec S_ 1 := cmpf .olt main_v37 main_cst_14
  let main_c_15 : IVec S_ 1 := constantI S_ 1 1#1
  let main_v39 : IVec S_ 1 := (fun x v => Host.reduce IntOp.andi x v reducesTo_S_S_d h_S_) main_v38 main_c_15
  let main_v40 : IVec S_ 1 := andi main_v36 main_v39
  let main_v41 : FVec F S_ .f32 := Host.absf main_arg9
  let main_cst_16 : FVec F S_ .f32 := constant S_ .f32 0x7F800000#32
  let main_v42 : IVec S_ 1 := cmpf .olt main_v41 main_cst_16
  let main_c_17 : IVec S_ 1 := constantI S_ 1 1#1
  let main_v43 : IVec S_ 1 := (fun x v => Host.reduce IntOp.andi x v reducesTo_S_S_d h_S_) main_v42 main_c_17
  let main_v44 : IVec S_ 1 := andi main_v40 main_v43
  let main_v45 : FVec F S8388608x2 .f32 := Host.absf main_arg10
  let main_cst_18 : FVec F S_ .f32 := constant S_ .f32 0x7F800000#32
  let main_v46 : FVec F S8388608x2 .f32 := broadcastInDim S8388608x2 ![] bcast_S_S8388608x2 main_cst_18
  let main_v47 : IVec S8388608x2 1 := cmpf .olt main_v45 main_v46
  let main_c_19 : IVec S_ 1 := constantI S_ 1 1#1
  let main_v48 : IVec S_ 1 := (fun x v => Host.reduce IntOp.andi x v reducesTo_S8388608x2_S_d0_1 h_S_) main_v47 main_c_19
  let main_v49 : IVec S_ 1 := andi main_v44 main_v48
  fn_part3 (F := F) main_arg11 main_v49

def fn_part1 {F : FTy → Type} [FloatOps F] (main_arg4 : FVec F S1048576x1 .f32) (main_arg5 : FVec F S1048576x1 .f32) (main_arg6 : FVec F S_ .f32) (main_arg7 : FVec F S_ .f32) (main_arg8 : FVec F S_ .f32) (main_arg9 : FVec F S_ .f32) (main_arg10 : FVec F S8388608x2 .f32) (main_arg11 : IVec S2x8388608 32) (main_v13 : IVec S_ 1) (main_v16 : IVec S1048576x1 1) : IVec S_ 1 :=
  let main_c_5 : IVec S_ 1 := constantI S_ 1 1#1
  let main_v17 : IVec S_ 1 := (fun x v => Host.reduce IntOp.andi x v reducesTo_S1048576x1_S_d0_1 h_S_) main_v16 main_c_5
  let main_v18 : IVec S_ 1 := andi main_v13 main_v17
  let main_v19 : FVec F S1048576x1 .f32 := Host.absf main_arg4
  let main_cst_6 : FVec F S_ .f32 := constant S_ .f32 0x7F800000#32
  let main_v20 : FVec F S1048576x1 .f32 := broadcastInDim S1048576x1 ![] bcast_S_S1048576x1 main_cst_6
  let main_v21 : IVec S1048576x1 1 := cmpf .olt main_v19 main_v20
  let main_c_7 : IVec S_ 1 := constantI S_ 1 1#1
  let main_v22 : IVec S_ 1 := (fun x v => Host.reduce IntOp.andi x v reducesTo_S1048576x1_S_d0_1 h_S_) main_v21 main_c_7
  let main_v23 : IVec S_ 1 := andi main_v18 main_v22
  let main_v24 : FVec F S1048576x1 .f32 := Host.absf main_arg5
  let main_cst_8 : FVec F S_ .f32 := constant S_ .f32 0x7F800000#32
  let main_v25 : FVec F S1048576x1 .f32 := broadcastInDim S1048576x1 ![] bcast_S_S1048576x1 main_cst_8
  let main_v26 : IVec S1048576x1 1 := cmpf .olt main_v24 main_v25
  let main_c_9 : IVec S_ 1 := constantI S_ 1 1#1
  let main_v27 : IVec S_ 1 := (fun x v => Host.reduce IntOp.andi x v reducesTo_S1048576x1_S_d0_1 h_S_) main_v26 main_c_9
  let main_v28 : IVec S_ 1 := andi main_v23 main_v27
  let main_v29 : FVec F S_ .f32 := Host.absf main_arg6
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_v33 : FVec F S_ .f32 := Host.absf main_arg7
  fn_part2 (F := F) main_arg8 main_arg9 main_arg10 main_arg11 main_v32 main_v33

def fn {F : FTy → Type} [FloatOps F] (main_arg0 : FVec F S1048576x2 .f32) (main_arg1 : FVec F S1048576x2 .f32) (main_arg2 : FVec F S1048576x1 .f32) (main_arg3 : FVec F S1048576x1 .f32) (main_arg4 : FVec F S1048576x1 .f32) (main_arg5 : FVec F S1048576x1 .f32) (main_arg6 : FVec F S_ .f32) (main_arg7 : FVec F S_ .f32) (main_arg8 : FVec F S_ .f32) (main_arg9 : FVec F S_ .f32) (main_arg10 : FVec F S8388608x2 .f32) (main_arg11 : IVec S2x8388608 32) : IVec S_ 1 :=
  let main_v0 : FVec F S1048576x2 .f32 := Host.absf main_arg0
  let main_cst : FVec F S_ .f32 := constant S_ .f32 0x7F800000#32
  let main_v1 : FVec F S1048576x2 .f32 := broadcastInDim S1048576x2 ![] bcast_S_S1048576x2 main_cst
  let main_v2 : IVec S1048576x2 1 := cmpf .olt main_v0 main_v1
  let main_c : IVec S_ 1 := constantI S_ 1 1#1
  let main_v3 : IVec S_ 1 := (fun x v => Host.reduce IntOp.andi x v reducesTo_S1048576x2_S_d0_1 h_S_) main_v2 main_c
  let main_v4 : FVec F S1048576x2 .f32 := Host.absf main_arg1
  let main_cst_0 : FVec F S_ .f32 := constant S_ .f32 0x7F800000#32
  let main_v5 : FVec F S1048576x2 .f32 := broadcastInDim S1048576x2 ![] bcast_S_S1048576x2 main_cst_0
  let main_v6 : IVec S1048576x2 1 := cmpf .olt main_v4 main_v5
  let main_c_1 : IVec S_ 1 := constantI S_ 1 1#1
  let main_v7 : IVec S_ 1 := (fun x v => Host.reduce IntOp.andi x v reducesTo_S1048576x2_S_d0_1 h_S_) main_v6 main_c_1
  let main_v8 : IVec S_ 1 := andi main_v3 main_v7
  let main_v9 : FVec F S1048576x1 .f32 := Host.absf main_arg2
  let main_cst_2 : FVec F S_ .f32 := constant S_ .f32 0x7F800000#32
  let main_v10 : FVec F S1048576x1 .f32 := broadcastInDim S1048576x1 ![] bcast_S_S1048576x1 main_cst_2
  let main_v11 : IVec S1048576x1 1 := cmpf .olt main_v9 main_v10
  let main_c_3 : IVec S_ 1 := constantI S_ 1 1#1
  let main_v12 : IVec S_ 1 := (fun x v => Host.reduce IntOp.andi x v reducesTo_S1048576x1_S_d0_1 h_S_) main_v11 main_c_3
  let main_v13 : IVec S_ 1 := andi main_v8 main_v12
  let main_v14 : FVec F S1048576x1 .f32 := Host.absf main_arg3
  let main_cst_4 : FVec F S_ .f32 := constant S_ .f32 0x7F800000#32
  let main_v15 : FVec F S1048576x1 .f32 := broadcastInDim S1048576x1 ![] bcast_S_S1048576x1 main_cst_4
  let main_v16 : IVec S1048576x1 1 := cmpf .olt main_v14 main_v15
  fn_part1 (F := F) main_arg4 main_arg5 main_arg6 main_arg7 main_arg8 main_arg9 main_arg10 main_arg11 main_v13 main_v16
-- ==== Kernel.lean ====
abbrev S1048576x2 : Shape := ⟨2, ![1048576, 2]⟩
abbrev S1048576x1 : Shape := ⟨2, ![1048576, 1]⟩
abbrev S_ : Shape := ⟨0, ![]⟩
abbrev S8388608x2 : Shape := ⟨2, ![8388608, 2]⟩
abbrev S2x8388608 : Shape := ⟨2, ![2, 8388608]⟩
abbrev S1x8388608 : Shape := ⟨2, ![1, 8388608]⟩
abbrev S8388608 : Shape := ⟨1, ![8388608]⟩
abbrev S8388608x1 : Shape := ⟨2, ![8388608, 1]⟩
abbrev S1 : Shape := ⟨1, ![1]⟩
abbrev S1x1 : Shape := ⟨2, ![1, 1]⟩
abbrev S131072x128 : Shape := ⟨2, ![131072, 128]⟩
abbrev S4096x128 : Shape := ⟨2, ![4096, 128]⟩
abbrev S8388608x4 : Shape := ⟨2, ![8388608, 4]⟩
abbrev S1048576x4 : Shape := ⟨2, ![1048576, 4]⟩
abbrev S1048576 : Shape := ⟨1, ![1048576]⟩
abbrev S8192x128 : Shape := ⟨2, ![8192, 128]⟩
abbrev S1024x128 : Shape := ⟨2, ![1024, 128]⟩

abbrev nBuf : Space → Nat
  | .hbm => 96
  | .vmem => 22
  | .smem => 0
  | _ => 0

abbrev bufTy : (tb : Table) → Fin (tcTables nBuf tb) → BufTy
  | .hbm, ⟨0, _⟩ => ⟨S1048576x2, .f32⟩
  | .hbm, ⟨1, _⟩ => ⟨S1048576x2, .f32⟩
  | .hbm, ⟨2, _⟩ => ⟨S1048576x1, .f32⟩
  | .hbm, ⟨3, _⟩ => ⟨S1048576x1, .f32⟩
  | .hbm, ⟨4, _⟩ => ⟨S1048576x1, .f32⟩
  | .hbm, ⟨5, _⟩ => ⟨S1048576x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8388608x2, .f32⟩
  | .hbm, ⟨11, _⟩ => ⟨S2x8388608, .i32⟩
  | .hbm, ⟨12, _⟩ => ⟨S1x8388608, .i32⟩
  | .hbm, ⟨13, _⟩ => ⟨S8388608, .i32⟩
  | .hbm, ⟨14, _⟩ => ⟨S1x8388608, .i32⟩
  | .hbm, ⟨15, _⟩ => ⟨S8388608, .i32⟩
  | .hbm, ⟨16, _⟩ => ⟨S1048576x2, .f32⟩
  | .hbm, ⟨17, _⟩ => ⟨S1048576x2, .f32⟩
  | .hbm, ⟨18, _⟩ => ⟨S_, .i32⟩
  | .hbm, ⟨19, _⟩ => ⟨S8388608, .i32⟩
  | .hbm, ⟨20, _⟩ => ⟨S8388608, .i1⟩
  | .hbm, ⟨21, _⟩ => ⟨S_, .i32⟩
  | .hbm, ⟨22, _⟩ => ⟨S8388608, .i32⟩
  | .hbm, ⟨23, _⟩ => ⟨S8388608, .i32⟩
  | .hbm, ⟨24, _⟩ => ⟨S8388608, .i32⟩
  | .hbm, ⟨25, _⟩ => ⟨S8388608x1, .i32⟩
  | .hbm, ⟨26, _⟩ => ⟨S1, .i32⟩
  | .hbm, ⟨27, _⟩ => ⟨S_, .i32⟩
  | .hbm, ⟨28, _⟩ => ⟨S8388608x1, .i32⟩
  | .hbm, ⟨29, _⟩ => ⟨S8388608x1, .i1⟩
  | .hbm, ⟨30, _⟩ => ⟨S1x1, .i32⟩
  | .hbm, ⟨31, _⟩ => ⟨S8388608x1, .i32⟩
  | .hbm, ⟨32, _⟩ => ⟨S8388608x1, .i1⟩
  | .hbm, ⟨33, _⟩ => ⟨S8388608x1, .i1⟩
  | .hbm, ⟨34, _⟩ => ⟨S_, .i1⟩
  | .hbm, ⟨35, _⟩ => ⟨S8388608, .i1⟩
  | .hbm, ⟨36, _⟩ => ⟨S8388608x2, .f32⟩
  | .hbm, ⟨37, _⟩ => ⟨S8388608x2, .i1⟩
  | .hbm, ⟨38, _⟩ => ⟨S_, .f32⟩
  | .hbm, ⟨39, _⟩ => ⟨S8388608x2, .f32⟩
  | .hbm, ⟨40, _⟩ => ⟨S8388608x2, .f32⟩
  | .hbm, ⟨41, _⟩ => ⟨S_, .i32⟩
  | .hbm, ⟨42, _⟩ => ⟨S8388608, .i32⟩
  | .hbm, ⟨43, _⟩ => ⟨S8388608, .i1⟩
  | .hbm, ⟨44, _⟩ => ⟨S_, .i32⟩
  | .hbm, ⟨45, _⟩ => ⟨S8388608, .i32⟩
  | .hbm, ⟨46, _⟩ => ⟨S8388608, .i32⟩
  | .hbm, ⟨47, _⟩ => ⟨S8388608, .i32⟩
  | .hbm, ⟨48, _⟩ => ⟨S8388608x1, .i32⟩
  | .hbm, ⟨49, _⟩ => ⟨S1, .i32⟩
  | .hbm, ⟨50, _⟩ => ⟨S_, .i32⟩
  | .hbm, ⟨51, _⟩ => ⟨S8388608x1, .i32⟩
  | .hbm, ⟨52, _⟩ => ⟨S8388608x1, .i1⟩
  | .hbm, ⟨53, _⟩ => ⟨S1x1, .i32⟩
  | .hbm, ⟨54, _⟩ => ⟨S8388608x1, .i32⟩
  | .hbm, ⟨55, _⟩ => ⟨S8388608x1, .i1⟩
  | .hbm, ⟨56, _⟩ => ⟨S8388608x1, .i1⟩
  | .hbm, ⟨57, _⟩ => ⟨S_, .i1⟩
  | .hbm, ⟨58, _⟩ => ⟨S8388608, .i1⟩
  | .hbm, ⟨59, _⟩ => ⟨S8388608x2, .f32⟩
  | .hbm, ⟨60, _⟩ => ⟨S8388608x2, .i1⟩
  | .hbm, ⟨61, _⟩ => ⟨S_, .f32⟩
  | .hbm, ⟨62, _⟩ => ⟨S8388608x2, .f32⟩
  | .hbm, ⟨63, _⟩ => ⟨S8388608x2, .f32⟩
  | .hbm, ⟨64, _⟩ => ⟨S131072x128, .f32⟩
  | .hbm, ⟨65, _⟩ => ⟨S131072x128, .f32⟩
  | .hbm, ⟨66, _⟩ => ⟨S131072x128, .f32⟩
  | .hbm, ⟨67, _⟩ => ⟨S131072x128, .f32⟩
  | .hbm, ⟨68, _⟩ => ⟨S131072x128, .f32⟩
  | .hbm, ⟨69, _⟩ => ⟨S8388608x2, .f32⟩
  | .hbm, ⟨70, _⟩ => ⟨S8388608x2, .f32⟩
  | .hbm, ⟨71, _⟩ => ⟨S8388608x4, .f32⟩
  | .hbm, ⟨72, _⟩ => ⟨S_, .f32⟩
  | .hbm, ⟨73, _⟩ => ⟨S1048576x4, .f32⟩
  | .hbm, ⟨74, _⟩ => ⟨S8388608x1, .i32⟩
  | .hbm, ⟨75, _⟩ => ⟨S1048576x4, .f32⟩
  | .hbm, ⟨76, _⟩ => ⟨S1048576x1, .f32⟩
  | .hbm, ⟨77, _⟩ => ⟨S1048576, .f32⟩
  | .hbm, ⟨78, _⟩ => ⟨S1048576x1, .f32⟩
  | .hbm, ⟨79, _⟩ => ⟨S1048576, .f32⟩
  | .hbm, ⟨80, _⟩ => ⟨S1048576x1, .f32⟩
  | .hbm, ⟨81, _⟩ => ⟨S1048576, .f32⟩
  | .hbm, ⟨82, _⟩ => ⟨S1048576x1, .f32⟩
  | .hbm, ⟨83, _⟩ => ⟨S1048576, .f32⟩
  | .hbm, ⟨84, _⟩ => ⟨S1048576x1, .f32⟩
  | .hbm, ⟨85, _⟩ => ⟨S1048576x1, .f32⟩
  | .hbm, ⟨86, _⟩ => ⟨S1048576x1, .f32⟩
  | .hbm, ⟨87, _⟩ => ⟨S1048576, .f32⟩
  | .hbm, ⟨88, _⟩ => ⟨S8192x128, .f32⟩
  | .hbm, ⟨89, _⟩ => ⟨S8192x128, .f32⟩
  | .hbm, ⟨90, _⟩ => ⟨S8192x128, .f32⟩
  | .hbm, ⟨91, _⟩ => ⟨S8192x128, .f32⟩
  | .hbm, ⟨92, _⟩ => ⟨S8192x128, .f32⟩
  | .hbm, ⟨93, _⟩ => ⟨S8192x128, .f32⟩
  | .hbm, ⟨94, _⟩ => ⟨S1048576, .f32⟩
  | .hbm, ⟨95, _⟩ => ⟨S1048576x1, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | _, _ => ⟨S1048576x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v6 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11_0 : Ref sig .tc := ⟨.hbm, 67, rfl⟩
abbrev main_v11_1 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_cst : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x8388608_S1x8388608_0_0 : S2x8388608.Slices ![0, 0] S1x8388608
  shapeCasts_S1x8388608_S8388608 : S1x8388608.ShapeCasts S8388608
  slices_S2x8388608_S1x8388608_1_0 : S2x8388608.Slices ![1, 0] S1x8388608
  bcast_S1048576x1_S1048576x2_0_1 : S1048576x1.BroadcastsInDim S1048576x2 (![0, 1] : Fin 2 → Fin S1048576x2.rank)
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S_S8388608x1 : S_.BroadcastsInDim S8388608x1 (![] : Fin 0 → Fin S8388608x1.rank)
  bcast_S1_S1x1_1 : S1.BroadcastsInDim S1x1 (![1] : Fin 1 → Fin S1x1.rank)
  bcast_S1x1_S8388608x1_0_1 : S1x1.BroadcastsInDim S8388608x1 (![0, 1] : Fin 2 → Fin S8388608x1.rank)
  reducesTo_S8388608x1_S8388608_d1 : S8388608x1.ReducesTo [1] S8388608
  h_S_ : 0 < S_.numel
  bcast_S8388608_S8388608x2_0 : S8388608.BroadcastsInDim S8388608x2 (![0] : Fin 1 → Fin S8388608x2.rank)
  bcast_S_S8388608x2 : S_.BroadcastsInDim S8388608x2 (![] : Fin 0 → Fin S8388608x2.rank)
  shapeCasts_S8388608x2_S131072x128 : S8388608x2.ShapeCasts S131072x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  natLt_1_32 : 1 < 32
  shapeCasts_S131072x128_S8388608x2 : S131072x128.ShapeCasts S8388608x2
  concatenates_S8388608x2_S8388608x2_S8388608x4_d1 : Shape.Concatenates [S8388608x2, S8388608x2] S8388608x4 1
  bcast_S_S1048576x4 : S_.BroadcastsInDim S1048576x4 (![] : Fin 0 → Fin S1048576x4.rank)
  slices_S1048576x4_S1048576x1_0_0 : S1048576x4.Slices ![0, 0] S1048576x1
  shapeCasts_S1048576x1_S1048576 : S1048576x1.ShapeCasts S1048576
  slices_S1048576x4_S1048576x1_0_1 : S1048576x4.Slices ![0, 1] S1048576x1
  slices_S1048576x4_S1048576x1_0_2 : S1048576x4.Slices ![0, 2] S1048576x1
  slices_S1048576x4_S1048576x1_0_3 : S1048576x4.Slices ![0, 3] S1048576x1
  bcast_S_S1048576x1 : S_.BroadcastsInDim S1048576x1 (![] : Fin 0 → Fin S1048576x1.rank)
  shapeCasts_S1048576_S8192x128 : S1048576.ShapeCasts S8192x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S8192x128_S1048576 : S8192x128.ShapeCasts S1048576
  bcast_S1048576_S1048576x1_0 : S1048576.BroadcastsInDim S1048576x1 (![0] : Fin 1 → Fin S1048576x1.rank)
  gather_S1048576x2_S8388608x1_S8388608x2_1_0_n_n_0_1_12_wf : GatherDims.WF S1048576x2 S8388608x1 S8388608x2 [1] [0] [] [0] [] 1 ![1, 2]
  scatter_S1048576x4_S8388608x1_S8388608x4_1_0_0_1_wf : ScatterDims.WF S1048576x4 S8388608x1 S8388608x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S131072x128.size a
  hwx0_4 : ∀ i : grid0.Coords, EltTy.bits .f32 = 32 ∨ (Rect.block (s := S131072x128) S4096x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S8192x128.size a
  hwx1_5 : ∀ i : grid1.Coords, EltTy.bits .f32 = 32 ∨ (Rect.block (s := S8192x128) S1024x128.size (cc1_transform_5 i) (hinb1_5 i)).WholeWords (EltTy.packing .f32)

variable [Facts₀]

def gather_S1048576x2_S8388608x1_S8388608x2_1_0_n_n_0_1_12 : GatherDims S1048576x2 S8388608x1 S8388608x2 where
  offsetDims := [1]
  collapsedSliceDims := [0]
  operandBatchingDims := []
  startIndicesBatchingDims := []
  startIndexMap := [0]
  indexVectorDim := 1
  sliceSizes := ![1, 2]
  wf := gather_S1048576x2_S8388608x1_S8388608x2_1_0_n_n_0_1_12_wf
def scatter_S1048576x4_S8388608x1_S8388608x4_1_0_0_1 : ScatterDims S1048576x4 S8388608x1 S8388608x4 where
  updateWindowDims := [1]
  insertedWindowDims := [0]
  scatterDimsToOperandDims := [0]
  indexVectorDim := 1
  wf := scatter_S1048576x4_S8388608x1_S8388608x4_1_0_0_1_wf

abbrev win0_0 : Pipeline.Window sig grid0 :=
  Pipeline.Window.ofSpec (Memref.whole main_v8) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S4096x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1024x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1048576x2 : Shape := ⟨2, ![1048576, 2]⟩
abbrev S1048576x1 : Shape := ⟨2, ![1048576, 1]⟩
abbrev S_ : Shape := ⟨0, ![]⟩
abbrev S8388608x2 : Shape := ⟨2, ![8388608, 2]⟩
abbrev S2x8388608 : Shape := ⟨2, ![2, 8388608]⟩
abbrev S1x8388608 : Shape := ⟨2, ![1, 8388608]⟩
abbrev S8388608 : Shape := ⟨1, ![8388608]⟩
abbrev S8388608x1 : Shape := ⟨2, ![8388608, 1]⟩
abbrev S1048576 : Shape := ⟨1, ![1048576]⟩

abbrev nBuf : Space → Nat
  | .hbm => 140
  | .vmem => 0
  | .smem => 0
  | _ => 0

abbrev hbmTy0_0 (i : Nat) : BufTy := match i % 128 with
  | 0 => ⟨S1048576x2, .f32⟩
  | 1 => ⟨S1048576x2, .f32⟩
  | 2 => ⟨S1048576x1, .f32⟩
  | 3 => ⟨S1048576x1, .f32⟩
  | 4 => ⟨S1048576x1, .f32⟩
  | 5 => ⟨S1048576x1, .f32⟩
  | 6 => ⟨S_, .f32⟩
  | 7 => ⟨S_, .f32⟩
  | 8 => ⟨S_, .f32⟩
  | 9 => ⟨S_, .f32⟩
  | 10 => ⟨S8388608x2, .f32⟩
  | 11 => ⟨S2x8388608, .i32⟩
  | 12 => ⟨S1x8388608, .i32⟩
  | 13 => ⟨S8388608, .i32⟩
  | 14 => ⟨S1x8388608, .i32⟩
  | 15 => ⟨S8388608, .i32⟩
  | 16 => ⟨S1048576x2, .f32⟩
  | 17 => ⟨S1048576x2, .f32⟩
  | 18 => ⟨S8388608x1, .f32⟩
  | 19 => ⟨S8388608, .f32⟩
  | 20 => ⟨S_, .f32⟩
  | 21 => ⟨S8388608, .f32⟩
  | 22 => ⟨S8388608, .i1⟩
  | 23 => ⟨S8388608x1, .f32⟩
  | 24 => ⟨S8388608, .f32⟩
  | 25 => ⟨S_, .f32⟩
  | 26 => ⟨S8388608, .f32⟩
  | 27 => ⟨S8388608, .i1⟩
  | 28 => ⟨S_, .i32⟩
  | 29 => ⟨S8388608, .i32⟩
  | 30 => ⟨S8388608, .i1⟩
  | 31 => ⟨S_, .i32⟩
  | 32 => ⟨S8388608, .i32⟩
  | 33 => ⟨S8388608, .i32⟩
  | 34 => ⟨S8388608, .i32⟩
  | 35 => ⟨S_, .i32⟩
  | 36 => ⟨S8388608, .i32⟩
  | 37 => ⟨S8388608, .i32⟩
  | 38 => ⟨S8388608x1, .i32⟩
  | 39 => ⟨S8388608x1, .i32⟩
  | 40 => ⟨S8388608x2, .i32⟩
  | 41 => ⟨S8388608, .f32⟩
  | 42 => ⟨S_, .i32⟩
  | 43 => ⟨S8388608, .i32⟩
  | 44 => ⟨S8388608, .i1⟩
  | 45 => ⟨S_, .i32⟩
  | 46 => ⟨S8388608, .i32⟩
  | 47 => ⟨S8388608, .i32⟩
  | 48 => ⟨S8388608, .i32⟩
  | 49 => ⟨S_, .i32⟩
  | 50 => ⟨S8388608, .i32⟩
  | 51 => ⟨S8388608, .i32⟩
  | 52 => ⟨S8388608x1, .i32⟩
  | 53 => ⟨S8388608x1, .i32⟩
  | 54 => ⟨S8388608x2, .i32⟩
  | 55 => ⟨S8388608, .f32⟩
  | 56 => ⟨S8388608, .f32⟩
  | 57 => ⟨S8388608x1, .f32⟩
  | 58 => ⟨S8388608, .f32⟩
  | 59 => ⟨S_, .f32⟩
  | 60 => ⟨S_, .f32⟩
  | 61 => ⟨S8388608, .f32⟩
  | 62 => ⟨S8388608, .f32⟩
  | 63 => ⟨S8388608, .f32⟩
  | 64 => ⟨S_, .f32⟩
  | 65 => ⟨S_, .f32⟩
  | 66 => ⟨S8388608, .f32⟩
  | 67 => ⟨S8388608, .f32⟩
  | 68 => ⟨S_, .f32⟩
  | 69 => ⟨S1048576, .f32⟩
  | 70 => ⟨S8388608x1, .i32⟩
  | 71 => ⟨S1048576, .f32⟩
  | 72 => ⟨S8388608, .f32⟩
  | 73 => ⟨S_, .f32⟩
  | 74 => ⟨S1048576, .f32⟩
  | 75 => ⟨S8388608x1, .i32⟩
  | 76 => ⟨S1048576, .f32⟩
  | 77 => ⟨S_, .f32⟩
  | 78 => ⟨S1048576, .f32⟩
  | 79 => ⟨S1048576, .f32⟩
  | 80 => ⟨S1048576, .f32⟩
  | 81 => ⟨S_, .i32⟩
  | 82 => ⟨S8388608, .i32⟩
  | 83 => ⟨S8388608, .i1⟩
  | 84 => ⟨S_, .i32⟩
  | 85 => ⟨S8388608, .i32⟩
  | 86 => ⟨S8388608, .i32⟩
  | 87 => ⟨S8388608, .i32⟩
  | 88 => ⟨S_, .i32⟩
  | 89 => ⟨S8388608, .i32⟩
  | 90 => ⟨S8388608, .i32⟩
  | 91 => ⟨S8388608x1, .i32⟩
  | 92 => ⟨S8388608x1, .i32⟩
  | 93 => ⟨S8388608x2, .i32⟩
  | 94 => ⟨S8388608, .f32⟩
  | 95 => ⟨S_, .i32⟩
  | 96 => ⟨S8388608, .i32⟩
  | 97 => ⟨S8388608, .i1⟩
  | 98 => ⟨S_, .i32⟩
  | 99 => ⟨S8388608, .i32⟩
  | 100 => ⟨S8388608, .i32⟩
  | 101 => ⟨S8388608, .i32⟩
  | 102 => ⟨S_, .i32⟩
  | 103 => ⟨S8388608, .i32⟩
  | 104 => ⟨S8388608, .i32⟩
  | 105 => ⟨S8388608x1, .i32⟩
  | 106 => ⟨S8388608x1, .i32⟩
  | 107 => ⟨S8388608x2, .i32⟩
  | 108 => ⟨S8388608, .f32⟩
  | 109 => ⟨S8388608, .f32⟩
  | 110 => ⟨S8388608x1, .f32⟩
  | 111 => ⟨S8388608, .f32⟩
  | 112 => ⟨S_, .f32⟩
  | 113 => ⟨S_, .f32⟩
  | 114 => ⟨S8388608, .f32⟩
  | 115 => ⟨S8388608, .f32⟩
  | 116 => ⟨S8388608, .f32⟩
  | 117 => ⟨S_, .f32⟩
  | 118 => ⟨S_, .f32⟩
  | 119 => ⟨S8388608, .f32⟩
  | 120 => ⟨S8388608, .f32⟩
  | 121 => ⟨S_, .f32⟩
  | 122 => ⟨S1048576, .f32⟩
  | 123 => ⟨S8388608x1, .i32⟩
  | 124 => ⟨S1048576, .f32⟩
  | 125 => ⟨S8388608, .f32⟩
  | 126 => ⟨S_, .f32⟩
  | 127 => ⟨S1048576, .f32⟩
  | _ => ⟨S1048576x2, .f32⟩

abbrev hbmTy0_1 (i : Nat) : BufTy := match i % 128 with
  | 0 => ⟨S8388608x1, .i32⟩
  | 1 => ⟨S1048576, .f32⟩
  | 2 => ⟨S_, .f32⟩
  | 3 => ⟨S1048576, .f32⟩
  | 4 => ⟨S1048576, .f32⟩
  | 5 => ⟨S1048576, .f32⟩
  | 6 => ⟨S1048576, .f32⟩
  | 7 => ⟨S1048576x1, .f32⟩
  | 8 => ⟨S1048576x1, .f32⟩
  | 9 => ⟨S1048576x1, .f32⟩
  | 10 => ⟨S1048576x1, .f32⟩
  | 11 => ⟨S1048576x1, .f32⟩
  | _ => ⟨S1048576x2, .f32⟩

abbrev hbmTy (i : Nat) : BufTy := match i / 128 with
  | 0 => hbmTy0_0 i
  | 1 => hbmTy0_1 i
  | _ => ⟨S1048576x2, .f32⟩

abbrev bufTy : (tb : Table) → Fin (tcTables nBuf tb) → BufTy
  | .hbm, ⟨i, _⟩ => hbmTy i
  | _, _ => ⟨S1048576x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_call0_v0 : Ref sig .tc := ⟨.hbm, 60, rfl⟩
abbrev main_call0_v1 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_call1_v0 : Ref sig .tc := ⟨.hbm, 65, rfl⟩
abbrev main_call1_v1 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_c_12 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_13 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_14 : Ref sig .tc := ⟨.hbm, 95, rfl⟩
abbrev main_v63 : Ref sig .tc := ⟨.hbm, 96, rfl⟩
abbrev main_v64 : Ref sig .tc := ⟨.hbm, 97, rfl⟩
abbrev main_c_15 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_16 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_17 : Ref sig .tc := ⟨.hbm, 112, rfl⟩
abbrev main_call2_v0 : Ref sig .tc := ⟨.hbm, 113, rfl⟩
abbrev main_call2_v1 : Ref sig .tc := ⟨.hbm, 114, rfl⟩
abbrev main_v77 : Ref sig .tc := ⟨.hbm, 115, rfl⟩
abbrev main_v78 : Ref sig .tc := ⟨.hbm, 116, rfl⟩
abbrev main_cst_18 : Ref sig .tc := ⟨.hbm, 117, rfl⟩
abbrev main_call3_v0 : Ref sig .tc := ⟨.hbm, 118, rfl⟩
abbrev main_call3_v1 : Ref sig .tc := ⟨.hbm, 119, rfl⟩
abbrev main_v79 : Ref sig .tc := ⟨.hbm, 120, rfl⟩
abbrev main_cst_19 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_20 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_21 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩

abbrev nD : Nat := 1
abbrev τ : Topo := Topo.v7x

variable {F : FTy → Type} [FloatOps F]

class Facts₀ : Prop where
  slices_S2x8388608_S1x8388608_0_0 : S2x8388608.Slices ![0, 0] S1x8388608
  shapeCasts_S1x8388608_S8388608 : S1x8388608.ShapeCasts S8388608
  slices_S2x8388608_S1x8388608_1_0 : S2x8388608.Slices ![1, 0] S1x8388608
  bcast_S1048576x1_S1048576x2_0_1 : S1048576x1.BroadcastsInDim S1048576x2 (![0, 1] : Fin 2 → Fin S1048576x2.rank)
  slices_S8388608x2_S8388608x1_0_0 : S8388608x2.Slices ![0, 0] S8388608x1
  shapeCasts_S8388608x1_S8388608 : S8388608x1.ShapeCasts S8388608
  bcast_S_S8388608 : S_.BroadcastsInDim S8388608 (![] : Fin 0 → Fin S8388608.rank)
  slices_S8388608x2_S8388608x1_0_1 : S8388608x2.Slices ![0, 1] S8388608x1
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  gather_S1048576x2_S8388608x2_S8388608_n_01_n_n_01_1_11_wf : GatherDims.WF S1048576x2 S8388608x2 S8388608 [] [0, 1] [] [0, 1] [] 1 ![1, 1]
  scatter_S1048576_S8388608x1_S8388608_n_0_0_1_wf : ScatterDims.WF S1048576 S8388608x1 S8388608 [] [0] [0] 1

variable [Facts₀]

def gather_S1048576x2_S8388608x2_S8388608_n_01_n_n_01_1_11 : GatherDims S1048576x2 S8388608x2 S8388608 where
  offsetDims := []
  collapsedSliceDims := [0, 1]
  operandBatchingDims := []
  startIndicesBatchingDims := []
  startIndexMap := [0, 1]
  indexVectorDim := 1
  sliceSizes := ![1, 1]
  wf := gather_S1048576x2_S8388608x2_S8388608_n_01_n_n_01_1_11_wf
def scatter_S1048576_S8388608x1_S8388608_n_0_0_1 : ScatterDims S1048576 S8388608x1 S8388608 where
  updateWindowDims := []
  insertedWindowDims := [0]
  scatterDimsToOperandDims := [0]
  indexVectorDim := 1
  wf := scatter_S1048576_S8388608x1_S8388608_n_0_0_1_wf

class Facts : Prop extends Facts₀ where

variable [Facts]
-- ==== Proof.Spec.lean ====
import Idealize.ShloMosaic.PureOps.Ideal
import Idealize.ShloMosaic.Lib.ValueIdx

/-!
  The loss of a compressible-fluid step on a graph, as one function of the argument arrays.

  Nodes carry a velocity `v` (two components) and a pressure `p`; `vp = v · p` componentwise. An edge `e` has a
  source `src e`, a destination `dst e` (rows 0 and 1 of the index array) and an offset `a e j` per direction `j`.
  Direction `j` counts edge `e` when `a e j ≠ 0`, and then the edge contributes the finite difference
  `(vp (dst e) j − vp (src e) j) / a e j`; otherwise it contributes `0`. Node `n` receives, per direction, the sum
  `S n j` of the contributions of the edges whose source is `n` and the number `C n j` of counted ones, and the
  result at `n` is `S n 0 / max (C n 0) 1 + S n 1 / max (C n 1) 1 + (p n − p' n) / dt`.

  A node index is a 32-bit word: a negative word names a row from the end (`wrapW`), and a read clamps the wrapped
  word into the table (`rowOf`). A sum over the edges of node `n` ranges over the edges whose source word, read as a
  signed integer and NOT wrapped, is `n`.
-/

noncomputable section

namespace Cert.Spec

open Idealize.ShloMosaic Idealize.ShloMosaic.ValueIdx

/-- The words the programs carry: `0.0`, `1.0` and the filler of an out-of-range read. -/
abbrev zeroW : EReal := Ideal.ofBits .f32 0x00000000#32
abbrev oneW : EReal := Ideal.ofBits .f32 0x3F800000#32
abbrev fillW : EReal := Ideal.ofBits .f32 0x7FC00000#32

/-- Is the offset nonzero (the edge counts in this direction). -/
def nz (a : EReal) : BitVec 1 := Ideal.cmp .one a zeroW

/-- One edge's contribution in one direction, from the two endpoint values and the offset. -/
def edgeTerm (vs vd a : EReal) : EReal :=
  Scalar.select (nz a) (Ideal.div (vd - vs) (Scalar.select (nz a) a oneW)) zeroW

/-- One edge's count in one direction: `1` when the offset is nonzero, else `0`. -/
def cntTerm (a : EReal) : EReal := (((nz a).toNat : ℝ) : EReal)

/-- A node's result from its two sums, its two counts and its pressure term. -/
def nodeTerm (sx cx sy cy pd : EReal) : EReal :=
  Ideal.div sx (max cx oneW) + Ideal.div sy (max cy oneW) + pd

/-- A negative index word names a row from the end. -/
def wrapW (z : BitVec 32) : BitVec 32 := Scalar.select (IntOp.cmpi .slt z 0#32) (IntOp.addi z 1048576#32) z

/-- The row of the node table a (wrapped) index word reads: clamped into the table. -/
def rowOf (z : BitVec 32) : Fin 1048576 := ⟨min (wrapW z).toInt.toNat (1048576 - 1), by omega⟩

variable (vx : (⟨2, ![1048576, 2]⟩ : Shape).Idx → EReal) (px pp : (⟨2, ![1048576, 1]⟩ : Shape).Idx → EReal)
  (dt : (⟨0, ![]⟩ : Shape).Idx → EReal) (ea : (⟨2, ![8388608, 2]⟩ : Shape).Idx → EReal)
  (ei : (⟨2, ![2, 8388608]⟩ : Shape).Idx → BitVec 32)

/-- `vp = v · p` at node `n`, component `j`. -/
def vpAt (n : Fin 1048576) (j : Fin 2) : EReal := vx (ix2 n j) * px (ix2 n 0)

/-- Edge `e`'s contribution in direction `j`. -/
def edgeAt (e : Fin 8388608) (j : Fin 2) : EReal :=
  edgeTerm (vpAt vx px (rowOf (ei (ix2 0 e))) j) (vpAt vx px (rowOf (ei (ix2 1 e))) j) (ea (ix2 e j))

/-- Edge `e`'s count in direction `j`. -/
def cntAt (e : Fin 8388608) (j : Fin 2) : EReal := cntTerm (ea (ix2 e j))

/-- The sum of `f` over the edges whose source word, read signed, is `n` (from `0.0`). -/
def segSum (f : Fin 8388608 → EReal) (n : Fin 1048576) : EReal :=
  zeroW + ∑ e ∈ Finset.univ.filter (fun e : Fin 8388608 => (ei (ix2 0 e)).toInt = (n.val : Int)), f e

/-- The pressure term at node `n`. -/
def pdAt (n : Fin 1048576) : EReal := Ideal.div (px (ix2 n 0) - pp (ix2 n 0)) (dt ix0)

/-- THE RESULT: the loss at every node. -/
def out : (⟨2, ![1048576, 1]⟩ : Shape).Idx → EReal := fun i =>
  nodeTerm (segSum ei (fun e => edgeAt vx px ea ei e 0) ⟨(i 0).val, (i 0).isLt⟩)
    (segSum ei (fun e => cntAt ea e 0) ⟨(i 0).val, (i 0).isLt⟩)
    (segSum ei (fun e => edgeAt vx px ea ei e 1) ⟨(i 0).val, (i 0).isLt⟩)
    (segSum ei (fun e => cntAt ea e 1) ⟨(i 0).val, (i 0).isLt⟩)
    (pdAt px pp dt ⟨(i 0).val, (i 0).isLt⟩)

/-! ## The same result with each endpoint read guarded by a validity bit

  A guarded read gives the table's value where its bit is set and the filler where it is not. -/

/-- A guarded read. -/
def guard (b : BitVec 1) (v : EReal) : EReal := Scalar.select b v fillW

/-- Edge `e`'s contribution in direction `j` from guarded endpoint reads (bits `ms e`, `md e`). -/
def edgeAtG (ms md : Fin 8388608 → BitVec 1) (e : Fin 8388608) (j : Fin 2) : EReal :=
  edgeTerm (guard (ms e) (vpAt vx px (rowOf (ei (ix2 0 e))) j)) (guard (md e) (vpAt vx px (rowOf (ei (ix2 1 e))) j))
    (ea (ix2 e j))

/-- The result from guarded endpoint reads. -/
def outG (ms md : Fin 8388608 → BitVec 1) : (⟨2, ![1048576, 1]⟩ : Shape).Idx → EReal := fun i =>
  nodeTerm (segSum ei (fun e => edgeAtG vx px ea ei ms md e 0) ⟨(i 0).val, (i 0).isLt⟩)
    (segSum ei (fun e => cntAt ea e 0) ⟨(i 0).val, (i 0).isLt⟩)
    (segSum ei (fun e => edgeAtG vx px ea ei ms md e 1) ⟨(i 0).val, (i 0).isLt⟩)
    (segSum ei (fun e => cntAt ea e 1) ⟨(i 0).val, (i 0).isLt⟩)
    (pdAt px pp dt ⟨(i 0).val, (i 0).isLt⟩)

/-- A sum over a node's edges depends only on the summand at the edges of that node. -/
theorem segSum_congr (f g : Fin 8388608 → EReal) (n : Fin 1048576)
    (h : ∀ e : Fin 8388608, (ei (ix2 0 e)).toInt = (n.val : Int) → f e = g e) : segSum ei f n = segSum ei g n := by
  unfold segSum
  refine congrArg (zeroW + ·) (Finset.sum_congr rfl fun e he => h e ?_)
  exact (Finset.mem_filter.1 he).2

/-- Where every destination's bit is set, and the source's bit is set at every edge whose source word is a row of the
    table, the guarded result is the result: an edge whose source word is no row belongs to no node's sum. -/
theorem outG_eq_out (ms md : Fin 8388608 → BitVec 1) (hd : ∀ e, md e = 1#1)
    (hs : ∀ e : Fin 8388608, 0 ≤ (ei (ix2 0 e)).toInt → (ei (ix2 0 e)).toInt < 1048576 → ms e = 1#1) :
    outG vx px pp dt ea ei ms md = out vx px pp dt ea ei := by
  funext i
  have key : ∀ (j : Fin 2) (n : Fin 1048576), segSum ei (fun e => edgeAtG vx px ea ei ms md e j) n
      = segSum ei (fun e => edgeAt vx px ea ei e j) n := fun j n =>
    segSum_congr ei _ _ n fun e he => by
      have h0 : 0 ≤ (ei (ix2 0 e)).toInt := by rw [he]; exact Int.natCast_nonneg _
      have h1 : (ei (ix2 0 e)).toInt < 1048576 := by rw [he]; exact_mod_cast n.isLt
      unfold edgeAtG edgeAt guard
      rw [hd e, hs e h0 h1]
      rfl
  unfold outG out
  rw [key 0, key 1]

end Cert.Spec

end
-- ==== Proof.KDef.lean ====
import proofs.«424055_j50130858279310_3_alg».proof.Proof.Gen.KernelIdeal
import proofs.«424055_j50130858279310_3_alg».proof.Proof.Spec

/-!
  The kernel program's result as ONE term of its argument arrays: the host operations of its `@main`, in order, around the
  two pointwise maps its two kernels apply (an edge's contribution and count; a node's result), each written with the
  dimension records the program itself carries. Nothing is read at an index here.
-/

noncomputable section

namespace Cert.KernelIdeal.KDef

open Idealize.ShloMosaic Cert.KernelIdeal Cert.KernelIdeal.Gen

variable (vx : S1048576x2.Idx → EReal) (px pp : S1048576x1.Idx → EReal) (dt : S_.Idx → EReal)
  (ea : S8388608x2.Idx → EReal) (ei : S2x8388608.Idx → BitVec 32)

/-- Row `r` of the index array (`r = 0`: the sources; `r = 1`: the destinations), as a vector of words. -/
def srcV : S8388608.Idx → BitVec 32 :=
  shapeCast S8388608 (extractStridedSlice S1x8388608 ![0, 0] ei slices_S2x8388608_S1x8388608_0_0) shapeCasts_S1x8388608_S8388608
def dstV : S8388608.Idx → BitVec 32 :=
  shapeCast S8388608 (extractStridedSlice S1x8388608 ![1, 0] ei slices_S2x8388608_S1x8388608_1_0) shapeCasts_S1x8388608_S8388608

/-- `vp = v · p`, the pressure column spread over both components. -/
def vpV : S1048576x2.Idx → EReal := mulf (F := Ideal) (φ := .f32) vx (broadcastInDim S1048576x2 ![0, 1] bcast_S1048576x1_S1048576x2_0_1 px)

/-- An index vector with its negative words wrapped, as a column of start indices. -/
def wrapCol (z : S8388608.Idx → BitVec 32) : S8388608x1.Idx → BitVec 32 :=
  broadcastInDim S8388608x1 ![0] bcast_S8388608_S8388608x1_0
    (select (cmpi .slt z (broadcastInDim S8388608 ![] bcast_S_S8388608 (constantI S_ 32 0#32)))
      (addi z (broadcastInDim S8388608 ![] bcast_S_S8388608 (constantI S_ 32 1048576#32))) z)

/-- Per edge, whether the wrapped index is a row of the table. -/
def validV (z : S8388608.Idx → BitVec 32) : S8388608.Idx → BitVec 1 :=
  Host.reduce IntOp.andi
    (andi (cmpi .sge (wrapCol z) (broadcastInDim S8388608x1 ![] bcast_S_S8388608x1 (constantI S_ 32 0#32)))
      (cmpi .sle (wrapCol z) (broadcastInDim S8388608x1 ![0, 1] bcast_S1x1_S8388608x1_0_1
        (broadcastInDim S1x1 ![1] bcast_S1_S1x1_1 (constantI S1 32 1048575#32)))))
    (constantI S_ 1 1#1) reducesTo_S8388608x1_S8388608_d1 h_S_

/-- The rows of `vp` an index vector names: the gathered row where the index is valid, the filler elsewhere. -/
def takeV (z : S8388608.Idx → BitVec 32) : S8388608x2.Idx → EReal :=
  select (broadcastInDim S8388608x2 ![0] bcast_S8388608_S8388608x2_0 (validV z))
    (Host.gather gather_S1048576x2_S8388608x1_S8388608x2_1_0_n_n_0_1_12 (vpV vx px) (wrapCol z))
    (broadcastInDim S8388608x2 ![] bcast_S_S8388608x2 (constant (F := Ideal) S_ .f32 0x7FC00000#32))

/-- An edge array laid out as the first kernel reads it. -/
def flat (x : S8388608x2.Idx → EReal) : S131072x128.Idx → EReal := shapeCast S131072x128 x shapeCasts_S8388608x2_S131072x128

/-- The first kernel's two results: every edge's contribution, and its count, in both directions. -/
def contribFlat : S131072x128.Idx → EReal := fun i =>
  Spec.edgeTerm (flat (takeV vx px (srcV ei)) i) (flat (takeV vx px (dstV ei)) i) (flat ea i)
def cntFlat : S131072x128.Idx → EReal := fun i => Spec.cntTerm (flat ea i)

/-- Contributions and counts side by side, summed into the rows their source words name. -/
def aggV : S1048576x4.Idx → EReal :=
  Host.scatterAdd (F := Ideal) (φ := .f32) scatter_S1048576x4_S8388608x1_S8388608x4_1_0_0_1
    (broadcastInDim S1048576x4 ![] bcast_S_S1048576x4 (constant (F := Ideal) S_ .f32 0x00000000#32))
    (broadcastInDim S8388608x1 ![0] bcast_S8388608_S8388608x1_0 (srcV ei))
    (concatenate S8388608x4 1 [⟨S8388608x2, shapeCast S8388608x2 (contribFlat vx px ea ei) shapeCasts_S131072x128_S8388608x2⟩,
      ⟨S8388608x2, shapeCast S8388608x2 (cntFlat ea) shapeCasts_S131072x128_S8388608x2⟩] concatenates_S8388608x2_S8388608x2_S8388608x4_d1)

/-- A node vector laid out as the second kernel reads it. -/
def nflat (x : S1048576.Idx → EReal) : S8192x128.Idx → EReal := shapeCast S8192x128 x shapeCasts_S1048576_S8192x128

/-- The four columns of the sums: contributions in the two directions, counts in the two directions. -/
def col0 : S8192x128.Idx → EReal := nflat (shapeCast S1048576 (extractStridedSlice S1048576x1 ![0, 0] (aggV vx px ea ei) slices_S1048576x4_S1048576x1_0_0) shapeCasts_S1048576x1_S1048576)
def col1 : S8192x128.Idx → EReal := nflat (shapeCast S1048576 (extractStridedSlice S1048576x1 ![0, 1] (aggV vx px ea ei) slices_S1048576x4_S1048576x1_0_1) shapeCasts_S1048576x1_S1048576)
def col2 : S8192x128.Idx → EReal := nflat (shapeCast S1048576 (extractStridedSlice S1048576x1 ![0, 2] (aggV vx px ea ei) slices_S1048576x4_S1048576x1_0_2) shapeCasts_S1048576x1_S1048576)
def col3 : S8192x128.Idx → EReal := nflat (shapeCast S1048576 (extractStridedSlice S1048576x1 ![0, 3] (aggV vx px ea ei) slices_S1048576x4_S1048576x1_0_3) shapeCasts_S1048576x1_S1048576)

/-- The pressure term per node. -/
def pdV : S8192x128.Idx → EReal :=
  nflat (shapeCast S1048576 (Host.divf (F := Ideal) (φ := .f32) (subf (F := Ideal) (φ := .f32) px pp) (broadcastInDim S1048576x1 ![] bcast_S_S1048576x1 dt)) shapeCasts_S1048576x1_S1048576)

/-- The second kernel's result. -/
def nodeFlat : S8192x128.Idx → EReal := fun i =>
  Spec.nodeTerm (col0 vx px ea ei i) (col2 vx px ea ei i) (col1 vx px ea ei i) (col3 vx px ea ei i) (pdV px pp dt i)

/-- THE PROGRAM'S RESULT. -/
def result : S1048576x1.Idx → EReal :=
  broadcastInDim S1048576x1 ![0] bcast_S1048576_S1048576x1_0 (shapeCast S1048576 (nodeFlat vx px pp dt ea ei) shapeCasts_S8192x128_S1048576)

end Cert.KernelIdeal.KDef

end
-- ==== Proof.EdgeRegion.lean ====
import proofs.«424055_j50130858279310_3_alg».proof.Proof.Gen.KernelIdeal.Frame
import proofs.«424055_j50130858279310_3_alg».proof.Proof.Spec
import Idealize.ShloMosaic.Lib.Pipeline.Value

/-!
  The first kernel, over the whole arrays. Its grid cuts the three `[131072, 128]` input arrays (source values,
  destination values, offsets) and its two output arrays into 32 blocks of 4096 rows; at each point the body stores,
  element by element, the edge's contribution `Spec.edgeTerm` of the three loaded blocks and the edge's count
  `Spec.cntTerm` of the offsets' block. So after the region each output array holds that function of the input arrays
  as the region found them, at every index.
-/

set_option maxRecDepth 16384

noncomputable section

namespace Cert.KernelIdeal.EdgeRegion

open Idealize.ShloMosaic Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The zero offsets of the body's whole-block loads and stores, as a constant function. -/
private theorem zero_offsets : (![0, 0] : Fin 2 → Nat) = fun _ => 0 := funext fun a => by fin_cases a <;> rfl

/-- A one-bit word widened to 32 bits, read as a signed integer, is its value as a natural number. -/
private theorem setWidth_toInt : ∀ b : BitVec 1, (b.setWidth 32).toInt = b.toNat := by decide

/-- The first store's payload is the edge's contribution, element by element, of the three loaded blocks
    (offsets, destination values, source values). -/
private theorem pay3_eq (x0 x6 x8 : Vec Ideal S4096x128 .f32) :
    k0_pay3 x0 x6 x8 = fun i => Spec.edgeTerm (x8 i) (x6 i) (x0 i) := by
  funext i
  unfold k0_pay3 k0_pay2 k0_pay1 Spec.edgeTerm Spec.nz
  simp only [shapeCast_self]
  rfl

/-- The second store's payload is the edge's count, element by element, of the offsets' block. -/
private theorem pay4_eq (x0 : Vec Ideal S4096x128 .f32) :
    k0_pay4 x0 = fun i => Spec.cntTerm (x0 i) := by
  funext i
  unfold k0_pay4 k0_pay2 k0_pay1 Spec.cntTerm Spec.nz
  simp only [shapeCast_self]
  show (((((Ideal.cmp .one (x0 i) Spec.zeroW).setWidth 32).toInt : ℝ)) : EReal) = _
  rw [setWidth_toInt]
  rfl

/-- The five index maps over the grid: at point `t` every window is on block row `t`, block column `0`. -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point `t` writes back to the contributions' array is block `t` of the edge contributions of the three
    input arrays as the region finds them. -/
private theorem flushed3_eq (c : Dev nD) (t : Fin cfg0.N) :
    (dat0 (F := Ideal) V c).flushed 3 t
      = ((cfg0.win 3).blk t).view.read (Elt Ideal)
          (fun i => Spec.edgeTerm (V c main_v8 i) (V c main_v9 i) (V c main_v10 i)) := by
  show (cfg0.win 3).cut (grid0.coords t) ((dat0 V c).after 3 t) = _
  rw [after0_3]
  unfold out0_3
  rw [View.canon_unit_zero zero_offsets]
  simp only [View.ld_unit_zero (S := S4096x128) zero_offsets]
  rw [pay3_eq]
  obtain ⟨a0, b0, a1, b1, a2, b2, a3, b3, a4, b4⟩ := idx_facts t
  funext j
  show Spec.edgeTerm (V c main_v8 (((cfg0.win 0).blk t).view.emb j)) (V c main_v9 (((cfg0.win 1).blk t).view.emb j))
      (V c main_v10 (((cfg0.win 2).blk t).view.emb j))
    = Spec.edgeTerm (V c main_v8 (((cfg0.win 3).blk t).view.emb j)) (V c main_v9 (((cfg0.win 3).blk t).view.emb j))
      (V c main_v10 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 4096 + 1 * (j 0).val = win0_3.index t (0 : Fin 2) * 4096 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 4096 + 1 * (j 0).val = win0_3.index t (0 : Fin 2) * 4096 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 4096 + 1 * (j 0).val = win0_3.index t (0 : Fin 2) * 4096 + 1 * (j 0).val; omega
    | ⟨1, _⟩ => show win0_2.index t (1 : Fin 2) * 128 + 1 * (j 1).val = win0_3.index t (1 : Fin 2) * 128 + 1 * (j 1).val; omega
  rw [h0, h1, h2]

/-- What point `t` writes back to the counts' array is block `t` of the edge counts of the offsets' array as the
    region finds it. -/
private theorem flushed4_eq (c : Dev nD) (t : Fin cfg0.N) :
    (dat0 (F := Ideal) V c).flushed 4 t
      = ((cfg0.win 4).blk t).view.read (Elt Ideal) (fun i => Spec.cntTerm (V c main_v10 i)) := by
  show (cfg0.win 4).cut (grid0.coords t) ((dat0 V c).after 4 t) = _
  rw [after0_4]
  unfold out0_4
  rw [View.canon_unit_zero zero_offsets]
  simp only [View.ld_unit_zero (S := S4096x128) zero_offsets]
  rw [pay4_eq]
  obtain ⟨a0, b0, a1, b1, a2, b2, a3, b3, a4, b4⟩ := idx_facts t
  funext j
  show Spec.cntTerm (V c main_v10 (((cfg0.win 2).blk t).view.emb j))
    = Spec.cntTerm (V c main_v10 (((cfg0.win 4).blk t).view.emb j))
  have h2 : ((cfg0.win 2).blk t).view.emb j = ((cfg0.win 4).blk t).view.emb j := by
    funext a; apply Fin.ext
    match a with
    | ⟨0, _⟩ => show win0_2.index t (0 : Fin 2) * 4096 + 1 * (j 0).val = win0_4.index t (0 : Fin 2) * 4096 + 1 * (j 0).val; omega
    | ⟨1, _⟩ => show win0_2.index t (1 : Fin 2) * 128 + 1 * (j 1).val = win0_4.index t (1 : Fin 2) * 128 + 1 * (j 1).val; omega
  rw [h2]

/-- An index of the contributions' array is in point `t`'s block iff each coordinate is in the block's range. -/
private theorem mem_blk3 (t : Fin cfg0.N) (i : S131072x128.Idx) :
    i ∈ ((cfg0.win 3).blk t).view.set ↔ ∀ a : Fin 2, win0_3.index t a * S4096x128.size a ≤ (i a).val
      ∧ (i a).val < win0_3.index t a * S4096x128.size a + S4096x128.size a := by
  show i ∈ ((View.whole main_v11_0).slice (win0_3.rect t)).set ↔ _
  rw [View.set_slice_whole, Rect.mem_set_unit]
  exact Iff.rfl

/-- An index of the counts' array is in point `t`'s block iff each coordinate is in the block's range. -/
private theorem mem_blk4 (t : Fin cfg0.N) (i : S131072x128.Idx) :
    i ∈ ((cfg0.win 4).blk t).view.set ↔ ∀ a : Fin 2, win0_4.index t a * S4096x128.size a ≤ (i a).val
      ∧ (i a).val < win0_4.index t a * S4096x128.size a + S4096x128.size a := by
  show i ∈ ((View.whole main_v11_1).slice (win0_4.rect t)).set ↔ _
  rw [View.set_slice_whole, Rect.mem_set_unit]
  exact Iff.rfl

/-- Row `r` of the contributions' array is in the block of point `r / 4096`, which writes back. -/
private theorem cover3 (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  have hN : cfg0.N = 32 := N_0
  let t : Fin cfg0.N := ⟨(i 0).val / 4096, by rw [hN]; omega⟩
  obtain ⟨a0, b0, a1, b1, a2, b2, a3, b3, a4, b4⟩ := idx_facts t
  have ht : t.val = (i 0).val / 4096 := rfl
  refine ⟨t, flush0_3 t, ?_⟩
  rw [mem_blk3]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- Row `r` of the counts' array is in the block of point `r / 4096`, which writes back. -/
private theorem cover4 (i : S131072x128.Idx) :
    ∃ t : Fin cfg0.N, (cfg0.win 4).flush t = true ∧ i ∈ ((cfg0.win 4).blk t).view.set := by
  have hi0 : (i 0).val < 131072 := (i 0).isLt
  have hi1 : (i 1).val < 128 := (i 1).isLt
  have hN : cfg0.N = 32 := N_0
  let t : Fin cfg0.N := ⟨(i 0).val / 4096, by rw [hN]; omega⟩
  obtain ⟨a0, b0, a1, b1, a2, b2, a3, b3, a4, b4⟩ := idx_facts t
  have ht : t.val = (i 0).val / 4096 := rfl
  refine ⟨t, flush0_4 t, ?_⟩
  rw [mem_blk4]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 128 ≤ (i 1).val ∧ (i 1).val < win0_4.index t (1 : Fin 2) * 128 + 128; omega

/-- The contributions' array after the region. -/
theorem contrib_array (c : Dev nD) :
    (dat0 (F := Ideal) V c).arrAt 3 cfg0.N
      = fun i => Spec.edgeTerm (V c main_v8 i) (V c main_v9 i) (V c main_v10 i) :=
  (dat0 (F := Ideal) V c).arrAt_eq_of_cover 3 _ (fun t _ => flushed3_eq V c t) cover3

/-- The counts' array after the region. -/
theorem cnt_array (c : Dev nD) :
    (dat0 (F := Ideal) V c).arrAt 4 cfg0.N = fun i => Spec.cntTerm (V c main_v10 i) :=
  (dat0 (F := Ideal) V c).arrAt_eq_of_cover 4 _ (fun t _ => flushed4_eq V c t) cover4

end Cert.KernelIdeal.EdgeRegion

end
-- ==== Proof.NodeRegion.lean ====
import proofs.«424055_j50130858279310_3_alg».proof.Proof.Gen.KernelIdeal.Frame
import proofs.«424055_j50130858279310_3_alg».proof.Proof.Spec
import Idealize.ShloMosaic.Lib.Pipeline.Value

/-!
  The second kernel, over the whole arrays. Its grid cuts the five `[8192, 128]` input arrays (the two sums, the two
  counts, the pressure term) and its output array into 8 blocks of 1024 rows; at each point the body stores, element by
  element, `Spec.nodeTerm` of the five loaded blocks. So after the region the output array holds that function of the
  input arrays as the region found them, at every index.
-/

set_option maxRecDepth 16384

noncomputable section

namespace Cert.KernelIdeal.NodeRegion

open Idealize.ShloMosaic Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The offsets of the body's one whole-block store, as the constant function. -/
private theorem origin_eq : (![0, 0] : Fin 2 → Nat) = fun _ => 0 := funext fun a => by fin_cases a <;> rfl

/-- The result array as one function of the five input arrays, index by index. -/
private abbrev nodeFn (sx cx sy cy pd : S8192x128.Idx → Elt Ideal .f32) : S8192x128.Idx → Elt Ideal .f32 :=
  fun i => Spec.nodeTerm (sx i) (cx i) (sy i) (cy i) (pd i)

/-- The body's payload is `Spec.nodeTerm` of its five loaded blocks, element by element. -/
private theorem payload_eq (v0 v2 v7 v9 v15 : Vec Ideal S1024x128 .f32) :
    k1_pay1 v0 v2 v7 v9 v15 = fun i => Spec.nodeTerm (v0 i) (v2 i) (v7 i) (v9 i) (v15 i) := by
  unfold k1_pay1
  simp only [shapeCast_self]
  rfl

/-- The index maps over the grid: each input window's block index is the output window's, on both axes, and the
    output's block indices stay in their ranges. -/
private theorem index_facts : ∀ t : Fin cfg1.N,
    win1_0.index t (0 : Fin 2) = win1_5.index t (0 : Fin 2) ∧ win1_0.index t (1 : Fin 2) = win1_5.index t (1 : Fin 2)
    ∧ win1_1.index t (0 : Fin 2) = win1_5.index t (0 : Fin 2) ∧ win1_1.index t (1 : Fin 2) = win1_5.index t (1 : Fin 2)
    ∧ win1_2.index t (0 : Fin 2) = win1_5.index t (0 : Fin 2) ∧ win1_2.index t (1 : Fin 2) = win1_5.index t (1 : Fin 2)
    ∧ win1_3.index t (0 : Fin 2) = win1_5.index t (0 : Fin 2) ∧ win1_3.index t (1 : Fin 2) = win1_5.index t (1 : Fin 2)
    ∧ win1_4.index t (0 : Fin 2) = win1_5.index t (0 : Fin 2) ∧ win1_4.index t (1 : Fin 2) = win1_5.index t (1 : Fin 2)
    ∧ win1_5.index t (0 : Fin 2) ≤ 7 ∧ win1_5.index t (1 : Fin 2) ≤ 0 :=
  (by decide +kernel : ∀ t : Fin grid1.N, _)

/-- Every block of the output array is some point's. -/
private theorem index_onto : ∀ (q0 : Fin 8) (q1 : Fin 1), ∃ t : Fin cfg1.N, win1_5.index t = ![q0.val, q1.val] :=
  (by decide +kernel : ∀ (q0 : Fin 8) (q1 : Fin 1), ∃ t : Fin grid1.N, win1_5.index t = ![q0.val, q1.val])

/-- Input window 0 (the sum in direction 0) reads, at the place `j` of its block at point `t`, the array index the output's
    block has there: a block's coordinate is its block index times the block size plus the coordinate inside. -/
private theorem emb_eq0 (t : Fin cfg1.N) (j : S1024x128.Idx) :
    ((cfg1.win 0).blk t).view.emb j = ((cfg1.win 5).blk t).view.emb j := by
  obtain ⟨e00, e01, e10, e11, e20, e21, e30, e31, e40, e41, -, -⟩ := index_facts t
  funext a; apply Fin.ext
  match a with
  | ⟨0, _⟩ => show win1_0.index t (0 : Fin 2) * 1024 + 1 * (j 0).val = win1_5.index t (0 : Fin 2) * 1024 + 1 * (j 0).val; omega
  | ⟨1, _⟩ => show win1_0.index t (1 : Fin 2) * 128 + 1 * (j 1).val = win1_5.index t (1 : Fin 2) * 128 + 1 * (j 1).val; omega

/-- Input window 1 (the count in direction 0) reads, at the place `j` of its block at point `t`, the array index the output's
    block has there: a block's coordinate is its block index times the block size plus the coordinate inside. -/
private theorem emb_eq1 (t : Fin cfg1.N) (j : S1024x128.Idx) :
    ((cfg1.win 1).blk t).view.emb j = ((cfg1.win 5).blk t).view.emb j := by
  obtain ⟨e00, e01, e10, e11, e20, e21, e30, e31, e40, e41, -, -⟩ := index_facts t
  funext a; apply Fin.ext
  match a with
  | ⟨0, _⟩ => show win1_1.index t (0 : Fin 2) * 1024 + 1 * (j 0).val = win1_5.index t (0 : Fin 2) * 1024 + 1 * (j 0).val; omega
  | ⟨1, _⟩ => show win1_1.index t (1 : Fin 2) * 128 + 1 * (j 1).val = win1_5.index t (1 : Fin 2) * 128 + 1 * (j 1).val; omega

/-- Input window 2 (the sum in direction 1) reads, at the place `j` of its block at point `t`, the array index the output's
    block has there: a block's coordinate is its block index times the block size plus the coordinate inside. -/
private theorem emb_eq2 (t : Fin cfg1.N) (j : S1024x128.Idx) :
    ((cfg1.win 2).blk t).view.emb j = ((cfg1.win 5).blk t).view.emb j := by
  obtain ⟨e00, e01, e10, e11, e20, e21, e30, e31, e40, e41, -, -⟩ := index_facts t
  funext a; apply Fin.ext
  match a with
  | ⟨0, _⟩ => show win1_2.index t (0 : Fin 2) * 1024 + 1 * (j 0).val = win1_5.index t (0 : Fin 2) * 1024 + 1 * (j 0).val; omega
  | ⟨1, _⟩ => show win1_2.index t (1 : Fin 2) * 128 + 1 * (j 1).val = win1_5.index t (1 : Fin 2) * 128 + 1 * (j 1).val; omega

/-- Input window 3 (the count in direction 1) reads, at the place `j` of its block at point `t`, the array index the output's
    block has there: a block's coordinate is its block index times the block size plus the coordinate inside. -/
private theorem emb_eq3 (t : Fin cfg1.N) (j : S1024x128.Idx) :
    ((cfg1.win 3).blk t).view.emb j = ((cfg1.win 5).blk t).view.emb j := by
  obtain ⟨e00, e01, e10, e11, e20, e21, e30, e31, e40, e41, -, -⟩ := index_facts t
  funext a; apply Fin.ext
  match a with
  | ⟨0, _⟩ => show win1_3.index t (0 : Fin 2) * 1024 + 1 * (j 0).val = win1_5.index t (0 : Fin 2) * 1024 + 1 * (j 0).val; omega
  | ⟨1, _⟩ => show win1_3.index t (1 : Fin 2) * 128 + 1 * (j 1).val = win1_5.index t (1 : Fin 2) * 128 + 1 * (j 1).val; omega

/-- Input window 4 (the pressure term) reads, at the place `j` of its block at point `t`, the array index the output's
    block has there: a block's coordinate is its block index times the block size plus the coordinate inside. -/
private theorem emb_eq4 (t : Fin cfg1.N) (j : S1024x128.Idx) :
    ((cfg1.win 4).blk t).view.emb j = ((cfg1.win 5).blk t).view.emb j := by
  obtain ⟨e00, e01, e10, e11, e20, e21, e30, e31, e40, e41, -, -⟩ := index_facts t
  funext a; apply Fin.ext
  match a with
  | ⟨0, _⟩ => show win1_4.index t (0 : Fin 2) * 1024 + 1 * (j 0).val = win1_5.index t (0 : Fin 2) * 1024 + 1 * (j 0).val; omega
  | ⟨1, _⟩ => show win1_4.index t (1 : Fin 2) * 128 + 1 * (j 1).val = win1_5.index t (1 : Fin 2) * 128 + 1 * (j 1).val; omega

/-- What point `t` writes back is block `t` of `nodeFn` of the input arrays as the region finds them. -/
private theorem flushed_eq (c : Dev nD) (t : Fin cfg1.N) :
    (dat1 (F := Ideal) V c).flushed 5 t = ((cfg1.win 5).blk t).view.read (Elt Ideal)
      (nodeFn (V c main_v30) (V c main_v31) (V c main_v32) (V c main_v33) (V c main_v34)) := by
  show (cfg1.win 5).cut (grid1.coords t) ((dat1 (F := Ideal) V c).after 5 t) = _
  rw [after1_5]
  unfold out1_5
  rw [View.canon_unit_zero origin_eq]
  simp only [View.ld_unit_zero (S := S1024x128) origin_eq]
  rw [payload_eq]
  funext j
  show Spec.nodeTerm (V c main_v30 (((cfg1.win 0).blk t).view.emb j)) (V c main_v31 (((cfg1.win 1).blk t).view.emb j))
      (V c main_v32 (((cfg1.win 2).blk t).view.emb j)) (V c main_v33 (((cfg1.win 3).blk t).view.emb j))
      (V c main_v34 (((cfg1.win 4).blk t).view.emb j))
    = Spec.nodeTerm (V c main_v30 (((cfg1.win 5).blk t).view.emb j)) (V c main_v31 (((cfg1.win 5).blk t).view.emb j))
      (V c main_v32 (((cfg1.win 5).blk t).view.emb j)) (V c main_v33 (((cfg1.win 5).blk t).view.emb j))
      (V c main_v34 (((cfg1.win 5).blk t).view.emb j))
  rw [emb_eq0 t j, emb_eq1 t j, emb_eq2 t j, emb_eq3 t j, emb_eq4 t j]

/-- An index of the array is in point `t`'s block iff each coordinate is in the block's range on its axis. -/
private theorem mem_block (t : Fin cfg1.N) (i : S8192x128.Idx) :
    i ∈ ((cfg1.win 5).blk t).view.set ↔ ∀ a : Fin 2, win1_5.index t a * S1024x128.size a ≤ (i a).val ∧ (i a).val < win1_5.index t a * S1024x128.size a + S1024x128.size a := by
  show i ∈ ((View.whole main_v35).slice (win1_5.rect t)).set ↔ _
  rw [View.set_slice_whole, Rect.mem_set_unit]
  exact Iff.rfl

/-- Every index of the array is in some point's block: row `r` is in the block of point `r / 1024`. -/
private theorem cover (i : S8192x128.Idx) :
    ∃ t : Fin cfg1.N, (cfg1.win 5).flush t = true ∧ i ∈ ((cfg1.win 5).blk t).view.set := by
  have hi0 : (i 0).val < 8192 := (i 0).isLt
  have hi1 : (i 1).val < 128 := (i 1).isLt
  obtain ⟨t, ht⟩ := index_onto ⟨(i 0).val / 1024, by omega⟩ ⟨(i 1).val / 128, by omega⟩
  have q0 : win1_5.index t (0 : Fin 2) = (i 0).val / 1024 := congrFun ht 0
  have q1 : win1_5.index t (1 : Fin 2) = (i 1).val / 128 := congrFun ht 1
  refine ⟨t, flush1_5 t, ?_⟩
  rw [mem_block]
  intro a
  match a with
  | ⟨0, _⟩ => show win1_5.index t (0 : Fin 2) * 1024 ≤ (i 0).val ∧ (i 0).val < win1_5.index t (0 : Fin 2) * 1024 + 1024; omega
  | ⟨1, _⟩ => show win1_5.index t (1 : Fin 2) * 128 ≤ (i 1).val ∧ (i 1).val < win1_5.index t (1 : Fin 2) * 128 + 128; omega

/-- The result array after the region. -/
theorem node_array (c : Dev nD) :
    (dat1 (F := Ideal) V c).arrAt 5 cfg1.N
      = fun i => Spec.nodeTerm (V c main_v30 i) (V c main_v31 i) (V c main_v32 i) (V c main_v33 i) (V c main_v34 i) :=
  (dat1 (F := Ideal) V c).arrAt_eq_of_cover 5
    (nodeFn (V c main_v30) (V c main_v31) (V c main_v32) (V c main_v33) (V c main_v34))
    (fun t _ => flushed_eq V c t) cover

end Cert.KernelIdeal.NodeRegion

end
-- ==== Proof.LibTRef.lean ====
/-
  A typed reference's two transports are inverse to each other.

  A module-local function's host operations read and write their buffers through a typed reference, which carries
  contents between the value's type and the buffer's along the equation of the two. Whatever that equation's proof,
  transporting there and back is the identity (`ofBuf_toBuf`, `toBuf_ofBuf`): a composed term of such operations
  reads as the plain composition of their functions.
-/
import Idealize.ShloMosaic.Lib.StableHlo

noncomputable section

namespace Cert.LibTRef

open Idealize.ShloMosaic Idealize.ShloMosaic.StableHlo

variable {sig : RefSig} {T : BufTy} {Val : EltTy → Type}

/-- Contents carried to the buffer's type and back are the contents. -/
theorem ofBuf_toBuf (x : TRef sig T) (v : T.Contents Val) : x.ofBuf (x.toBuf v) = v := by
  obtain ⟨r, rfl, h2, h3⟩ := x
  rfl

/-- Contents carried to the value's type and back are the contents. -/
theorem toBuf_ofBuf (x : TRef sig T) (u : x.ref.ty.Contents Val) : x.toBuf (x.ofBuf u) = u := by
  obtain ⟨r, rfl, h2, h3⟩ := x
  rfl

end Cert.LibTRef

end
-- ==== Proof.LibCat2.lean ====
/-
  A two-piece concatenation as a function of its two operands.

  `concatenate` takes its pieces as a LIST of shape–array pairs. A simplifier pass that computes what a buffer holds after
  a line of host operations rewrites inside the arguments of an operation's function, but not inside such a list, so the
  operands of a concatenation of COMPUTED arrays stay unevaluated folds, and a closing comparison has to evaluate them by
  unfolding, which can take minutes or run out of recursion depth. `cat2` names the two operands as plain arguments:
  rewriting a two-piece `concatenate` to `cat2` (`cat2_eq`, in the same pass) lets the pass go on into both operands;
  `cat2` unfolds back to the `concatenate` by definition.
-/
import Idealize.ShloMosaic.PureOps.ShapeOps

namespace Cert.LibCat2

open Idealize.ShloMosaic

/-- Two arrays joined along axis `a`, as a function of the two. -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A two-piece concatenation is `cat2` of its operands. -/
theorem cat2_eq {α : Type} (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

end Cert.LibCat2
-- ==== Proof.KTerm.lean ====
import proofs.«424055_j50130858279310_3_alg».proof.Proof.Gen.KernelIdeal.Frame
import proofs.«424055_j50130858279310_3_alg».proof.Proof.KDef
import proofs.«424055_j50130858279310_3_alg».proof.Proof.EdgeRegion
import proofs.«424055_j50130858279310_3_alg».proof.Proof.NodeRegion
import proofs.«424055_j50130858279310_3_alg».proof.Proof.LibTRef
import proofs.«424055_j50130858279310_3_alg».proof.Proof.LibCat2
import Idealize.ShloMosaic.Lib.StableHlo.Run

/-!
  The kernel program's result buffer, read back through the run to the launch memory.

  The run's buffer contents at each boundary are a fold: a stretch of host operations applies its operations in order, a
  kernel region replaces its output arrays by what its grid wrote and keeps everything else. Reading the result buffer
  back through the fold — the last stretch, the second region's output, the middle stretch, the first region's two
  outputs, the four opening stretches — gives the one term `KDef.result` of the six argument arrays the program reads.
-/

set_option maxRecDepth 16384

noncomputable section

namespace Cert.KernelIdeal.KTerm

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## Before the first region -/

/-- The source words, the destination words and `vp` after the opening stretch. -/
theorem W1_src (c : Dev nD) : W1 m ρ c (Proc.devRef .tc main_v1) = KDef.srcV (m ((c : Thread nD τ).loc main_arg11)) := by
  show StableHlo.after hostOps0 (W0 m ρ c) (Proc.devRef .tc main_v1) = _
  after_results
  rfl

theorem W1_dst (c : Dev nD) : W1 m ρ c (Proc.devRef .tc main_v3) = KDef.dstV (m ((c : Thread nD τ).loc main_arg11)) := by
  show StableHlo.after hostOps0 (W0 m ρ c) (Proc.devRef .tc main_v3) = _
  after_results
  rfl

/-- The rows of `vp` at the sources. -/
theorem W2_take (c : Dev nD) : W2 m ρ c (Proc.devRef .tc main_v6)
    = KDef.takeV (m ((c : Thread nD τ).loc main_arg0)) (m ((c : Thread nD τ).loc main_arg2)) (KDef.srcV (m ((c : Thread nD τ).loc main_arg11))) := by
  show StableHlo.after hostOps0_1 (W1 m ρ c) (Proc.devRef .tc main_v6) = _
  after_results_simp
  simp only [Cert.LibTRef.ofBuf_toBuf]
  simp only [TRef.toBuf, TRef.ofBuf, cast_eq]
  rfl

/-- The rows of `vp` at the destinations. -/
theorem W3_take (c : Dev nD) : W3 m ρ c (Proc.devRef .tc main_v7)
    = KDef.takeV (m ((c : Thread nD τ).loc main_arg0)) (m ((c : Thread nD τ).loc main_arg2)) (KDef.dstV (m ((c : Thread nD τ).loc main_arg11))) := by
  show StableHlo.after hostOps0_2 (W2 m ρ c) (Proc.devRef .tc main_v7) = _
  after_results_simp
  simp only [Cert.LibTRef.ofBuf_toBuf]
  simp only [TRef.toBuf, TRef.ofBuf, cast_eq]
  rfl

/-- The second gather's stretch leaves the first gather's result alone. -/
theorem W3_keep (c : Dev nD) : W3 m ρ c (Proc.devRef .tc main_v6) = W2 m ρ c (Proc.devRef .tc main_v6) := by
  show StableHlo.after hostOps0_2 (W2 m ρ c) (Proc.devRef .tc main_v6) = _
  generalize W2 m ρ c = X
  after_results_simp

/-- The three arrays the first region reads: both endpoint reads and the offsets, laid out in rows of 128. -/
theorem W4_src (c : Dev nD) : W4 m ρ c (Proc.devRef .tc main_v8)
    = KDef.flat (KDef.takeV (m ((c : Thread nD τ).loc main_arg0)) (m ((c : Thread nD τ).loc main_arg2)) (KDef.srcV (m ((c : Thread nD τ).loc main_arg11)))) := by
  have e : W4 m ρ c (Proc.devRef .tc main_v8) = KDef.flat (W3 m ρ c (Proc.devRef .tc main_v6)) := by
    show StableHlo.after hostOps0_3 (W3 m ρ c) (Proc.devRef .tc main_v8) = _
    generalize W3 m ρ c = X
    after_results
    rfl
  rw [e, W3_keep, W2_take]

theorem W4_dst (c : Dev nD) : W4 m ρ c (Proc.devRef .tc main_v9)
    = KDef.flat (KDef.takeV (m ((c : Thread nD τ).loc main_arg0)) (m ((c : Thread nD τ).loc main_arg2)) (KDef.dstV (m ((c : Thread nD τ).loc main_arg11)))) := by
  have e : W4 m ρ c (Proc.devRef .tc main_v9) = KDef.flat (W3 m ρ c (Proc.devRef .tc main_v7)) := by
    show StableHlo.after hostOps0_3 (W3 m ρ c) (Proc.devRef .tc main_v9) = _
    generalize W3 m ρ c = X
    after_results
    rfl
  rw [e, W3_take]

theorem W4_attr (c : Dev nD) : W4 m ρ c (Proc.devRef .tc main_v10) = KDef.flat (m ((c : Thread nD τ).loc main_arg10)) := by
  show StableHlo.after hostOps0_3 (W3 m ρ c) (Proc.devRef .tc main_v10) = _
  after_results_simp
  rfl

/-- Buffers the first region and the stretches before it leave as they were or as the opening stretch made them. -/
theorem W4_srcWords (c : Dev nD) : W4 m ρ c (Proc.devRef .tc main_v1) = KDef.srcV (m ((c : Thread nD τ).loc main_arg11)) := by
  show StableHlo.after hostOps0_3 (W3 m ρ c) (Proc.devRef .tc main_v1) = _
  after_results_simp
  rfl

theorem W4_arg2 (c : Dev nD) : W4 m ρ c (Proc.devRef .tc main_arg2) = (m ((c : Thread nD τ).loc main_arg2)) := by
  show StableHlo.after hostOps0_3 (W3 m ρ c) (Proc.devRef .tc main_arg2) = _
  after_results_simp

theorem W4_arg3 (c : Dev nD) : W4 m ρ c (Proc.devRef .tc main_arg3) = (m ((c : Thread nD τ).loc main_arg3)) := by
  show StableHlo.after hostOps0_3 (W3 m ρ c) (Proc.devRef .tc main_arg3) = _
  after_results_simp

theorem W4_arg9 (c : Dev nD) : W4 m ρ c (Proc.devRef .tc main_arg9) = (m ((c : Thread nD τ).loc main_arg9)) := by
  show StableHlo.after hostOps0_3 (W3 m ρ c) (Proc.devRef .tc main_arg9) = _
  after_results_simp

/-! ## The first region -/

/-- After the first region its two output arrays hold every edge's contribution and count. -/
theorem W5_contrib (c : Dev nD) : W5 m ρ c (Proc.devRef .tc main_v11_0)
    = KDef.contribFlat (m ((c : Thread nD τ).loc main_arg0)) (m ((c : Thread nD τ).loc main_arg2)) (m ((c : Thread nD τ).loc main_arg10)) (m ((c : Thread nD τ).loc main_arg11)) := by
  refine (W5_arr m ρ c 3).trans ?_
  rw [EdgeRegion.contrib_array (V4 m ρ) c]
  funext i
  show Spec.edgeTerm (W4 m ρ c (Proc.devRef .tc main_v8) i) (W4 m ρ c (Proc.devRef .tc main_v9) i)
    (W4 m ρ c (Proc.devRef .tc main_v10) i) = _
  rw [W4_src, W4_dst, W4_attr]
  rfl

theorem W5_cnt (c : Dev nD) : W5 m ρ c (Proc.devRef .tc main_v11_1) = KDef.cntFlat (m ((c : Thread nD τ).loc main_arg10)) := by
  refine (W5_arr m ρ c 4).trans ?_
  rw [EdgeRegion.cnt_array (V4 m ρ) c]
  funext i
  show Spec.cntTerm (W4 m ρ c (Proc.devRef .tc main_v10) i) = _
  rw [W4_attr]
  rfl

theorem W5_srcWords (c : Dev nD) : W5 m ρ c (Proc.devRef .tc main_v1) = KDef.srcV (m ((c : Thread nD τ).loc main_arg11)) :=
  (W5_of_ne m ρ c main_v1 (by decide)).trans (W4_srcWords m ρ c)
theorem W5_arg2 (c : Dev nD) : W5 m ρ c (Proc.devRef .tc main_arg2) = (m ((c : Thread nD τ).loc main_arg2)) :=
  (W5_of_ne m ρ c main_arg2 (by decide)).trans (W4_arg2 m ρ c)
theorem W5_arg3 (c : Dev nD) : W5 m ρ c (Proc.devRef .tc main_arg3) = (m ((c : Thread nD τ).loc main_arg3)) :=
  (W5_of_ne m ρ c main_arg3 (by decide)).trans (W4_arg3 m ρ c)
theorem W5_arg9 (c : Dev nD) : W5 m ρ c (Proc.devRef .tc main_arg9) = (m ((c : Thread nD τ).loc main_arg9)) :=
  (W5_of_ne m ρ c main_arg9 (by decide)).trans (W4_arg9 m ρ c)

/-! ## Between the regions -/

/-- The four columns of the summed payload and the pressure term, as the middle stretch computes them from the first
    region's outputs, the source words and the pressure arrays. -/
theorem W6_v30 (c : Dev nD) : W6 m ρ c (Proc.devRef .tc main_v30) = KDef.col0 (m ((c : Thread nD τ).loc main_arg0)) (m ((c : Thread nD τ).loc main_arg2)) (m ((c : Thread nD τ).loc main_arg10)) (m ((c : Thread nD τ).loc main_arg11)) := by
  show StableHlo.after hostOps1 (W5 m ρ c) (Proc.devRef .tc main_v30) = _
  simp (disch := decide) only [after_cons, after_nil, Cert.LibCat2.cat2_eq,
    nullary_result', unary_result', binary_result', ternary_result', reshape_result',
    nullary_result_ne', unary_result_ne', binary_result_ne', ternary_result_ne', reshape_result_ne']
  rw [W5_contrib, W5_cnt, W5_srcWords]
  rfl

theorem W6_v31 (c : Dev nD) : W6 m ρ c (Proc.devRef .tc main_v31) = KDef.col2 (m ((c : Thread nD τ).loc main_arg0)) (m ((c : Thread nD τ).loc main_arg2)) (m ((c : Thread nD τ).loc main_arg10)) (m ((c : Thread nD τ).loc main_arg11)) := by
  show StableHlo.after hostOps1 (W5 m ρ c) (Proc.devRef .tc main_v31) = _
  simp (disch := decide) only [after_cons, after_nil, Cert.LibCat2.cat2_eq,
    nullary_result', unary_result', binary_result', ternary_result', reshape_result',
    nullary_result_ne', unary_result_ne', binary_result_ne', ternary_result_ne', reshape_result_ne']
  rw [W5_contrib, W5_cnt, W5_srcWords]
  rfl

theorem W6_v32 (c : Dev nD) : W6 m ρ c (Proc.devRef .tc main_v32) = KDef.col1 (m ((c : Thread nD τ).loc main_arg0)) (m ((c : Thread nD τ).loc main_arg2)) (m ((c : Thread nD τ).loc main_arg10)) (m ((c : Thread nD τ).loc main_arg11)) := by
  show StableHlo.after hostOps1 (W5 m ρ c) (Proc.devRef .tc main_v32) = _
  simp (disch := decide) only [after_cons, after_nil, Cert.LibCat2.cat2_eq,
    nullary_result', unary_result', binary_result', ternary_result', reshape_result',
    nullary_result_ne', unary_result_ne', binary_result_ne', ternary_result_ne', reshape_result_ne']
  rw [W5_contrib, W5_cnt, W5_srcWords]
  rfl

theorem W6_v33 (c : Dev nD) : W6 m ρ c (Proc.devRef .tc main_v33) = KDef.col3 (m ((c : Thread nD τ).loc main_arg0)) (m ((c : Thread nD τ).loc main_arg2)) (m ((c : Thread nD τ).loc main_arg10)) (m ((c : Thread nD τ).loc main_arg11)) := by
  show StableHlo.after hostOps1 (W5 m ρ c) (Proc.devRef .tc main_v33) = _
  simp (disch := decide) only [after_cons, after_nil, Cert.LibCat2.cat2_eq,
    nullary_result', unary_result', binary_result', ternary_result', reshape_result',
    nullary_result_ne', unary_result_ne', binary_result_ne', ternary_result_ne', reshape_result_ne']
  rw [W5_contrib, W5_cnt, W5_srcWords]
  rfl

theorem W6_v34 (c : Dev nD) : W6 m ρ c (Proc.devRef .tc main_v34) = KDef.pdV (m ((c : Thread nD τ).loc main_arg2)) (m ((c : Thread nD τ).loc main_arg3)) (m ((c : Thread nD τ).loc main_arg9)) := by
  show StableHlo.after hostOps1 (W5 m ρ c) (Proc.devRef .tc main_v34) = _
  after_results_simp
  rw [W5_arg2, W5_arg3, W5_arg9]
  rfl

/-! ## The second region and the closing stretch -/

theorem W7_node (c : Dev nD) : W7 m ρ c (Proc.devRef .tc main_v35)
    = KDef.nodeFlat (m ((c : Thread nD τ).loc main_arg0)) (m ((c : Thread nD τ).loc main_arg2)) (m ((c : Thread nD τ).loc main_arg3)) (m ((c : Thread nD τ).loc main_arg9)) (m ((c : Thread nD τ).loc main_arg10)) (m ((c : Thread nD τ).loc main_arg11)) := by
  refine (W7_arr m ρ c 5).trans ?_
  rw [NodeRegion.node_array (V6 m ρ) c]
  funext i
  show Spec.nodeTerm (W6 m ρ c (Proc.devRef .tc main_v30) i) (W6 m ρ c (Proc.devRef .tc main_v31) i)
    (W6 m ρ c (Proc.devRef .tc main_v32) i) (W6 m ρ c (Proc.devRef .tc main_v33) i)
    (W6 m ρ c (Proc.devRef .tc main_v34) i) = _
  rw [W6_v30, W6_v31, W6_v32, W6_v33, W6_v34]
  rfl

/-- THE RESULT BUFFER at the end of the run is the program's result term of the argument arrays. -/
theorem W8_result (c : Dev nD) : W8 m ρ c (Proc.devRef .tc main_v37)
    = KDef.result (m ((c : Thread nD τ).loc main_arg0)) (m ((c : Thread nD τ).loc main_arg2)) (m ((c : Thread nD τ).loc main_arg3)) (m ((c : Thread nD τ).loc main_arg9)) (m ((c : Thread nD τ).loc main_arg10)) (m ((c : Thread nD τ).loc main_arg11)) := by
  show StableHlo.after hostOps2 (W7 m ρ c) (Proc.devRef .tc main_v37) = _
  after_results
  rw [W7_node]
  rfl

end Cert.KernelIdeal.KTerm

end
-- ==== Proof.LibGatherRow.lean ====
import Idealize.ShloMosaic.Lib.ValueIdx

/-!
  A gather of whole rows of a table, read at an index.

  `table[ids]` over a table `[N, C]` prints as a gather whose one collapsed and start-indexed operand axis is the row
  axis (collapsed_slice_dims `[0]`, start_index_map `[0]`, slice_sizes `[1, C]`), whose one offset axis is the result's
  last and whose index vector lies on the start indices' last axis, of extent one. Result element `(…, c)` is the
  table's at `(row, c)`, `row` the start index read as a signed integer and clamped into `[0, N − 1]`: a negative
  index reads row 0, one past the end reads the last row. Stated for an arbitrary record of dimension numbers whose
  lists are the ones above (each hypothesis holds by `rfl` on a written record), at start indices `[R, K, 1]`
  (`gather_row3`) and `[R, 1]` (`gather_row2`), every extent a variable.
-/

namespace Cert.LibGatherRow

open Idealize.ShloMosaic Idealize.ShloMosaic.ValueIdx

variable {α : Type}

/-- The row of a table of `N` rows a start index selects: the index as a signed integer, clamped into `[0, N − 1]`. -/
def clampRow (N : Nat) (hN : 0 < N) {w : Nat} (v : BitVec w) : Fin N := ⟨min v.toInt.toNat (N - 1), by omega⟩

theorem clampRow_val (N : Nat) (hN : 0 < N) {w : Nat} (v : BitVec w) :
    (clampRow N hN v).val = min v.toInt.toNat (N - 1) := rfl

/-- Start indices `[R, K, 1]`, result `[R, K, C]`: element `(b, k, e)` is the table's at the row `idx[b, k, 0]` selects, column `e`. -/
theorem gather_row3 {N C R K w : Nat} (hN : 0 < N)
    (d : GatherDims ⟨2, ![N, C]⟩ ⟨3, ![R, K, 1]⟩ ⟨3, ![R, K, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![R, K, 1]⟩ w) (b : Fin R) (k : Fin K) (e : Fin C) :
    Host.gather d x idx (ix3 b k e) = x (ix2 (clampRow N hN (idx (ix3 b k 0))) e) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the row axis: collapsed and start-indexed, so the coordinate is the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix3 b k 0)).toInt.toNat (N - 1)
    rw [hsl]
    -- the start index is read at the result's two batch coordinates, component 0
    refine congrArg (fun v => min (idx v).toInt.toNat (N - 1)) ?_
    funext q
    refine Fin.ext ?_
    match q with
    | ⟨0, _⟩ => rfl
    | ⟨1, _⟩ => rfl
    | ⟨2, _⟩ => rfl
  | ⟨1, _⟩ =>
    -- the column axis: neither collapsed nor start-indexed, so the coordinate is the result's offset coordinate
    show GatherDims.start _ _ idx 1 + GatherDims.batchCoord _ _ 1 + GatherDims.offCoord _ _ 1 = e.val
    rw [GatherDims.batchCoord_eq_zero _ _ _ List.not_mem_nil]
    unfold GatherDims.start GatherDims.offCoord
    rw [dif_neg (by simp), dif_pos (by simp [GatherDims.sKept, Shape.kept])]
    rw [Nat.add_zero, Nat.zero_add]
    rfl

/-- Start indices `[R, 1]`, result `[R, C]`: element `(b, e)` is the table's at the row `idx[b, 0]` selects, column `e`. -/
theorem gather_row2 {N C R w : Nat} (hN : 0 < N)
    (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (b : Fin R) (e : Fin C) :
    Host.gather d x idx (ix2 b e) = x (ix2 (clampRow N hN (idx (ix2 b 0))) e) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the row axis: the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix2 b 0)).toInt.toNat (N - 1)
    rw [hsl]
    -- the start index is read at the result's one batch coordinate, component 0
    refine congrArg (fun v => min (idx v).toInt.toNat (N - 1)) ?_
    funext q
    refine Fin.ext ?_
    match q with
    | ⟨0, _⟩ => rfl
    | ⟨1, _⟩ => rfl
  | ⟨1, _⟩ =>
    -- the column axis: the result's offset coordinate
    show GatherDims.start _ _ idx 1 + GatherDims.batchCoord _ _ 1 + GatherDims.offCoord _ _ 1 = e.val
    rw [GatherDims.batchCoord_eq_zero _ _ _ List.not_mem_nil]
    unfold GatherDims.start GatherDims.offCoord
    rw [dif_neg (by simp), dif_pos (by simp [GatherDims.sKept, Shape.kept])]
    rw [Nat.add_zero, Nat.zero_add]
    rfl

end Cert.LibGatherRow
-- ==== Proof.LibPoint.lean ====
import Idealize.ShloMosaic.Lib.ValueIdx
import Idealize.ShloMosaic.PureOps.ShapeOps
import Idealize.ShloMosaic.PureOps.Dims
import Idealize.ShloMosaic.PureOps.Contract

/-!
  Two reads of host operations at an index.

  * A `stablehlo.gather` of SINGLE ELEMENTS of a table `[U, V]`: both operand axes collapsed and named by the start index
    map, the start indices an `[K, 2]` array (one pair of words per result element), the result a vector `[K]`. Result
    element `k` is the table at the pair's two words, each read signed and clamped into its axis.
  * A reduction by `and` of an `i1` array `[K, 1]` along its unit axis, from an initial 1: where the one element of row
    `k` is 1, the result at `k` is 1.
-/

namespace Cert.LibPoint

open Idealize.ShloMosaic Idealize.ShloMosaic.ValueIdx

/-- A word read signed and clamped into an axis of extent `U`. -/
def clampTo {w : Nat} (U : Nat) (hU : 0 < U) (z : BitVec w) : Fin U := ⟨min z.toInt.toNat (U - 1), by omega⟩

theorem clampTo_val {w : Nat} (U : Nat) (hU : 0 < U) (z : BitVec w) : (clampTo U hU z).val = min z.toInt.toNat (U - 1) := rfl

/-- The gather of single elements: result element `k` is the table at row `k`'s two start words, clamped. -/
theorem gather_point {α : Type} {U V K w : Nat} (d : GatherDims ⟨2, ![U, V]⟩ ⟨2, ![K, 2]⟩ ⟨1, ![K]⟩)
    (hod : d.offsetDims = []) (hcoll : d.collapsedSliceDims = [0, 1]) (hob : d.operandBatchingDims = [])
    (hsim : d.startIndexMap = [0, 1]) (hivd : d.indexVectorDim = 1) (hU : 0 < U) (hV : 0 < V)
    (x : (⟨2, ![U, V]⟩ : Shape).Idx → α) (idx : IVec ⟨2, ![K, 2]⟩ w) (k : Fin K) :
    Host.gather d x idx (ix1 k) = x (ix2 (clampTo U hU (idx (ix2 k 0))) (clampTo V hV (idx (ix2 k 1)))) := by
  have hsl0 : d.sliceSizes 0 = 1 := d.slice_collapsed 0 (by rw [hcoll]; exact List.mem_cons_self)
  have hsl1 : d.sliceSizes 1 = 1 :=
    d.slice_collapsed 1 (by rw [hcoll]; exact List.mem_cons_of_mem _ (List.mem_singleton.mpr rfl))
  obtain ⟨od, cd, ob, sb, sm, iv, ss, wf⟩ := d
  dsimp only at hod hcoll hob hsim hivd hsl0 hsl1
  subst hod hcoll hob hsim hivd
  unfold Host.gather
  congr 1
  funext a
  refine Fin.ext ?_
  match a with
  | ⟨0, _⟩ =>
    -- the row axis: collapsed and start-indexed, so the coordinate is the clamped first word alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 List.mem_cons_self)]
    unfold GatherDims.start
    rw [dif_pos List.mem_cons_self]
    show min (idx _).toInt.toNat (U - ss 0) = min (idx (ix2 k 0)).toInt.toNat (U - 1)
    rw [hsl0]
    -- the first word is read at the result's one batch coordinate, component 0
    refine congrArg (fun v => min (idx v).toInt.toNat (U - 1)) ?_
    funext q
    refine Fin.ext ?_
    match q with
    | ⟨0, _⟩ => rfl
    | ⟨1, _⟩ => rfl
  | ⟨1, _⟩ =>
    -- the column axis: collapsed and start-indexed too, the clamped second word alone
    show GatherDims.start _ _ idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1
        (List.mem_cons_of_mem _ (List.mem_singleton.mpr rfl)))]
    unfold GatherDims.start
    rw [dif_pos (List.mem_cons_of_mem _ (List.mem_singleton.mpr rfl))]
    show min (idx _).toInt.toNat (V - ss 1) = min (idx (ix2 k 1)).toInt.toNat (V - 1)
    rw [hsl1]
    -- the second word is read at the result's one batch coordinate, component 1
    refine congrArg (fun v => min (idx v).toInt.toNat (V - 1)) ?_
    funext q
    refine Fin.ext ?_
    match q with
    | ⟨0, _⟩ => rfl
    | ⟨1, _⟩ => rfl

/-- A left fold by `and` from 1 over `i1` words that are all 1 is 1. -/
private theorem foldl_andi_ones {ι : Type} (f : ι → BitVec 1) :
    ∀ (l : List ι), (∀ n ∈ l, f n = 1#1) → l.foldl (fun r n => IntOp.andi r (f n)) 1#1 = 1#1
  | [], _ => rfl
  | a :: l, hl => by
    rw [List.foldl_cons, hl a List.mem_cons_self]
    exact foldl_andi_ones f l fun n hn => hl n (List.mem_cons_of_mem _ hn)

/-- The only index of `[K, 1]` that drops to `k` along the unit axis is `(k, 0)`. -/
private theorem drops_to_row {K : Nat} (h : (⟨2, ![K, 1]⟩ : Shape).ReducesTo [1] ⟨1, ![K]⟩)
    (i : (⟨2, ![K, 1]⟩ : Shape).Idx) (k : Fin K) (hi : h.drop i = ix1 k) : i = ix2 k 0 := by
  have h0 : (h.drop i 0).val = k.val := by rw [hi]; rfl
  funext a
  refine Fin.ext ?_
  match a with
  | ⟨0, _⟩ => exact h0
  | ⟨1, _⟩ => exact Nat.lt_one_iff.1 (i 1).isLt

/-- The and-reduction along a unit axis, from 1: 1 where the row's element is 1. -/
theorem reduce_andi_unit {K : Nat} (x : (⟨2, ![K, 1]⟩ : Shape).Idx → BitVec 1) (init : (⟨0, ![]⟩ : Shape).Idx → BitVec 1)
    (h : (⟨2, ![K, 1]⟩ : Shape).ReducesTo [1] ⟨1, ![K]⟩) (hu : 0 < (⟨0, ![]⟩ : Shape).numel) (k : Fin K)
    (hinit : ∀ i, init i = 1#1) (hx : x (ix2 k 0) = 1#1) : Host.reduce IntOp.andi x init h hu (ix1 k) = 1#1 := by
  unfold Host.reduce
  rw [hinit]
  refine foldl_andi_ones _ _ fun n hn => ?_
  rw [drops_to_row h _ k (of_decide_eq_true (List.mem_filter.1 hn).2)]
  exact hx

end Cert.LibPoint
-- ==== Proof.KTake.lean ====
import proofs.«424055_j50130858279310_3_alg».proof.Proof.KDef
import proofs.«424055_j50130858279310_3_alg».proof.Proof.LibGatherRow
import proofs.«424055_j50130858279310_3_alg».proof.Proof.LibPoint
import Idealize.ShloMosaic.Lib.Pipeline.Value

/-!
  The kernel program's two endpoint reads at an index. Row `r` of the index array read at edge `e` is the word at
  `(r, e)`. The read of `vp` at an index vector `z` gives, at edge `e` and component `j`, the value of `vp` at the row the
  word `z e` names (wrapped, then clamped) where the word's validity bit is set, and the filler where it is not; and
  the bit is set whenever the word, read signed, is a row of the table.
-/

noncomputable section

namespace Cert.KernelIdeal.KTake

open Idealize.ShloMosaic Idealize.ShloMosaic.ValueIdx Cert.KernelIdeal Cert.KernelIdeal.Gen

theorem srcV_apply (ei : S2x8388608.Idx → BitVec 32) (e : Fin 8388608) : KDef.srcV ei (ix1 e) = ei (ix2 0 e) := by
  unfold KDef.srcV
  refine (shapeCast_apply _ shapeCasts_S1x8388608_S8388608 (ix1 e) (ix2 0 e) ?_).trans ?_
  · rw [Shape.rowMajor_val_two, Shape.rowMajor_val_one]
    show (0 : Nat) * 8388608 + e.val = e.val
    omega
  · refine extractStridedSlice_apply _ ei _ (ix2 0 e) (ix2 0 e) fun a => ?_
    match a with
    | ⟨0, _⟩ => rfl
    | ⟨1, _⟩ => show e.val = 0 + e.val; omega

theorem dstV_apply (ei : S2x8388608.Idx → BitVec 32) (e : Fin 8388608) : KDef.dstV ei (ix1 e) = ei (ix2 1 e) := by
  unfold KDef.dstV
  refine (shapeCast_apply _ shapeCasts_S1x8388608_S8388608 (ix1 e) (ix2 0 e) ?_).trans ?_
  · rw [Shape.rowMajor_val_two, Shape.rowMajor_val_one]
    show (0 : Nat) * 8388608 + e.val = e.val
    omega
  · refine extractStridedSlice_apply _ ei _ (ix2 0 e) (ix2 1 e) fun a => ?_
    match a with
    | ⟨0, _⟩ => rfl
    | ⟨1, _⟩ => show e.val = 0 + e.val; omega

/-- The wrapped column at row `e` is the wrap of the word at `e`. -/
private theorem wrapCol_apply (z : S8388608.Idx → BitVec 32) (e : Fin 8388608) :
    KDef.wrapCol z (ix2 e 0) = Spec.wrapW (z (ix1 e)) := by
  unfold KDef.wrapCol
  refine (broadcastInDim_apply _ bcast_S8388608_S8388608x1_0 _ (ix2 e 0) (ix1 e) fun a => ?_).trans rfl
  match a with
  | ⟨0, _⟩ => rfl

/-- `vp` at node `n`, component `j`. -/
private theorem vpV_apply (vx : S1048576x2.Idx → EReal) (px : S1048576x1.Idx → EReal) (n : Fin 1048576) (j : Fin 2) :
    KDef.vpV vx px (ix2 n j) = Spec.vpAt vx px n j := by
  unfold KDef.vpV Spec.vpAt
  refine congrArg (vx (ix2 n j) * ·) ?_
  refine broadcastInDim_apply _ bcast_S1048576x1_S1048576x2_0_1 px (ix2 n j) (ix2 n 0) fun a => ?_
  match a with
  | ⟨0, _⟩ => rfl
  | ⟨1, _⟩ => rfl

/-- The row a start word selects in the table is the row of the unwrapped word. -/
private theorem clampRow_wrapW (w : BitVec 32) :
    Cert.LibGatherRow.clampRow 1048576 (by decide) (Spec.wrapW w) = Spec.rowOf w := Fin.ext rfl

/-- The guarded read at an index. -/
theorem takeV_apply (vx : S1048576x2.Idx → EReal) (px : S1048576x1.Idx → EReal) (z : S8388608.Idx → BitVec 32)
    (e : Fin 8388608) (j : Fin 2) :
    KDef.takeV vx px z (ix2 e j) = Spec.guard (KDef.validV z (ix1 e)) (Spec.vpAt vx px (Spec.rowOf (z (ix1 e))) j) := by
  unfold KDef.takeV Spec.guard
  show Scalar.select (broadcastInDim S8388608x2 ![0] bcast_S8388608_S8388608x2_0 (KDef.validV z) (ix2 e j))
    (Host.gather gather_S1048576x2_S8388608x1_S8388608x2_1_0_n_n_0_1_12 (KDef.vpV vx px) (KDef.wrapCol z) (ix2 e j)) Spec.fillW = _
  have hb : broadcastInDim S8388608x2 ![0] bcast_S8388608_S8388608x2_0 (KDef.validV z) (ix2 e j) = KDef.validV z (ix1 e) := by
    refine broadcastInDim_apply _ bcast_S8388608_S8388608x2_0 _ (ix2 e j) (ix1 e) fun a => ?_
    match a with
    | ⟨0, _⟩ => rfl
  have hg : Host.gather gather_S1048576x2_S8388608x1_S8388608x2_1_0_n_n_0_1_12 (KDef.vpV vx px) (KDef.wrapCol z) (ix2 e j)
      = Spec.vpAt vx px (Spec.rowOf (z (ix1 e))) j := by
    rw [Cert.LibGatherRow.gather_row2 (by decide) gather_S1048576x2_S8388608x1_S8388608x2_1_0_n_n_0_1_12 rfl rfl rfl rfl rfl,
      wrapCol_apply, clampRow_wrapW, vpV_apply]
  rw [hb, hg]

/-- A word that is a row of the table has its validity bit set. -/
theorem validV_eq_one (z : S8388608.Idx → BitVec 32) (e : Fin 8388608) (h0 : 0 ≤ (z (ix1 e)).toInt)
    (h1 : (z (ix1 e)).toInt < 1048576) : KDef.validV z (ix1 e) = 1#1 := by
  unfold KDef.validV
  refine Cert.LibPoint.reduce_andi_unit _ _ _ _ e (fun _ => rfl) ?_
  show IntOp.andi (IntOp.cmpi .sge (KDef.wrapCol z (ix2 e 0)) 0#32) (IntOp.cmpi .sle (KDef.wrapCol z (ix2 e 0)) 1048575#32) = 1#1
  have hw : Spec.wrapW (z (ix1 e)) = z (ix1 e) := by
    unfold Spec.wrapW
    have hc : IntOp.cmpi .slt (z (ix1 e)) 0#32 = 0#1 := eq_zero_of_ne_one fun h => by
      have h' := IntOp.cmpi_slt.1 h
      rw [BitVec.toInt_zero] at h'
      omega
    rw [hc]
    exact select_zero _ _
  rw [wrapCol_apply, hw]
  refine IntOp.andi_eq_one.2 ⟨IntOp.cmpi_sge.2 ?_, IntOp.cmpi_sle.2 ?_⟩
  · rw [BitVec.toInt_zero]; exact h0
  · have : (1048575#32 : BitVec 32).toInt = 1048575 := by decide
    rw [this]; omega

end Cert.KernelIdeal.KTake

end
-- ==== Proof.LibScatterRows.lean ====
import Idealize.ShloMosaic.PureOps.Ideal
import Idealize.ShloMosaic.PureOps.Contract
import Idealize.ShloMosaic.Lib.ValueIdx

/-!
  A scatter-add into the ROWS a column of index words names, read at an index, at the exact instance.

  The operand is a vector `[N]` or a table `[N, C]`; the scatter indices are a column `[K, 1]`, one word per update; the
  updates are a vector `[K]` or a table `[K, C]` whose row `k` goes, whole, to the operand row that word `k` names. The word
  is read as a SIGNED integer and is not clamped: an update whose word is negative or past the last row is dropped. So
  the result at row `n` (column `c`) is the operand there plus the sum of the updates (at column `c`) over the `k` whose
  word, read signed, is `n`.
-/

noncomputable section

namespace Cert.LibScatterRows

open Idealize.ShloMosaic Idealize.ShloMosaic.ValueIdx

/-- An update index lands on operand index `i` exactly when, on every operand axis, the window's start plus the window
    coordinate is `i`'s coordinate (being equal to a coordinate, the sum is then inside the operand on that axis). -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro he
    by_cases h : ∀ a, 0 ≤ d.start j idx a + d.window j a ∧ d.start j idx a + d.window j a < s.size a
    · rw [dif_pos h] at he
      have he' := Option.some.inj he
      intro a
      have hv : (d.start j idx a + d.window j a).toNat = (i a).val := congrArg (fun f => (f a).val) he'
      have := (h a).1
      omega
    · rw [dif_neg h] at he
      exact absurd he (by simp)
  · intro hall
    have h : ∀ a, 0 ≤ d.start j idx a + d.window j a ∧ d.start j idx a + d.window j a < s.size a := by
      intro a
      have := (i a).isLt
      rw [hall a]
      omega
    rw [dif_pos h]
    refine congrArg some ?_
    funext a
    refine Fin.ext ?_
    show (d.start j idx a + d.window j a).toNat = (i a).val
    rw [hall a]
    exact Int.toNat_natCast _

/-- Operand `[N]`, updates `[K]`: update `j` lands on row `n` exactly when its index word, read signed, is `n`. -/
private theorem lands_vec {N K w : Nat} (d : ScatterDims ⟨1, ![N]⟩ ⟨2, ![K, 1]⟩ ⟨1, ![K]⟩)
    (huw : d.updateWindowDims = []) (hiw : d.insertedWindowDims = [0]) (hsd : d.scatterDimsToOperandDims = [0])
    (hivd : d.indexVectorDim = 1) (idx : IVec ⟨2, ![K, 1]⟩ w) (j : (⟨1, ![K]⟩ : Shape).Idx) (n : Fin N) :
    d.resultIdx? j idx = some (ix1 n) ↔ (idx (ix2 (j 0) 0)).toInt = (n.val : Int) := by
  rw [resultIdx?_eq_some_iff]
  obtain ⟨uw, iw, sd, iv, wf⟩ := d
  dsimp only at huw hiw hsd hivd
  subst huw hiw hsd hivd
  -- the one operand axis is scattered: its start is the index word of the update's one coordinate
  have hstart : ScatterDims.start ⟨[], [0], [0], 1, wf⟩ j idx 0 = (idx (ix2 (j 0) 0)).toInt := by
    unfold ScatterDims.start
    rw [dif_pos (List.mem_singleton.mpr rfl)]
    refine congrArg (fun v => (idx v).toInt) ?_
    funext q
    refine Fin.ext ?_
    match q with
    | ⟨0, _⟩ => rfl
    | ⟨1, _⟩ => rfl
  -- and it is an inserted axis: no window coordinate
  have hwin : ScatterDims.window ⟨[], [0], [0], 1, wf⟩ j 0 = 0 := by
    unfold ScatterDims.window
    rw [dif_neg (by simp [ScatterDims.sKept, Shape.kept])]
  constructor
  · intro h
    have h0 := h 0
    rw [hstart, hwin] at h0
    have h0' : (idx (ix2 (j 0) 0)).toInt + ((0 : Nat) : Int) = (n.val : Int) := h0
    simpa using h0'
  · intro h a
    obtain rfl : a = 0 := Subsingleton.elim _ _
    rw [hstart, hwin, h]
    show (n.val : Int) + ((0 : Nat) : Int) = (n.val : Int)
    simp

/-- Operand `[N, C]`, updates `[K, C]`: update `j` lands on `(n, c)` exactly when its row's index word, read signed, is
    `n` and its column is `c`. -/
private theorem lands_rows {N C K w : Nat} (d : ScatterDims ⟨2, ![N, C]⟩ ⟨2, ![K, 1]⟩ ⟨2, ![K, C]⟩)
    (huw : d.updateWindowDims = [1]) (hiw : d.insertedWindowDims = [0]) (hsd : d.scatterDimsToOperandDims = [0])
    (hivd : d.indexVectorDim = 1) (idx : IVec ⟨2, ![K, 1]⟩ w) (j : (⟨2, ![K, C]⟩ : Shape).Idx) (n : Fin N) (c : Fin C) :
    d.resultIdx? j idx = some (ix2 n c) ↔ (idx (ix2 (j 0) 0)).toInt = (n.val : Int) ∧ j 1 = c := by
  rw [resultIdx?_eq_some_iff]
  obtain ⟨uw, iw, sd, iv, wf⟩ := d
  dsimp only at huw hiw hsd hivd
  subst huw hiw hsd hivd
  -- the row axis is scattered: its start is the index word of the update's row
  have hstart0 : ScatterDims.start ⟨[1], [0], [0], 1, wf⟩ j idx 0 = (idx (ix2 (j 0) 0)).toInt := by
    unfold ScatterDims.start
    rw [dif_pos (List.mem_singleton.mpr rfl)]
    refine congrArg (fun v => (idx v).toInt) ?_
    funext q
    refine Fin.ext ?_
    match q with
    | ⟨0, _⟩ => rfl
    | ⟨1, _⟩ => rfl
  -- and inserted: no window coordinate
  have hwin0 : ScatterDims.window ⟨[1], [0], [0], 1, wf⟩ j 0 = 0 := by
    unfold ScatterDims.window
    rw [dif_neg (by simp [ScatterDims.sKept, Shape.kept])]
  -- the column axis is not scattered: its start is 0
  have hstart1 : ScatterDims.start ⟨[1], [0], [0], 1, wf⟩ j idx 1 = 0 := by
    unfold ScatterDims.start
    rw [dif_neg (by simp)]
  -- and it is the one window axis: its window coordinate is the update's column
  have hwin1 : ScatterDims.window ⟨[1], [0], [0], 1, wf⟩ j 1 = (j 1).val := by
    unfold ScatterDims.window
    rw [dif_pos (by simp [ScatterDims.sKept, Shape.kept])]
    rfl
  constructor
  · intro h
    have h0 := h 0
    have h1 := h 1
    rw [hstart0, hwin0] at h0
    rw [hstart1, hwin1] at h1
    have h0' : (idx (ix2 (j 0) 0)).toInt + ((0 : Nat) : Int) = (n.val : Int) := h0
    have h1' : (0 : Int) + ((j 1).val : Int) = (c.val : Int) := h1
    refine ⟨by simpa using h0', Fin.ext ?_⟩
    omega
  · rintro ⟨h0, h1⟩ a
    match a with
    | ⟨0, _⟩ =>
      show ScatterDims.start ⟨[1], [0], [0], 1, wf⟩ j idx 0 + (ScatterDims.window ⟨[1], [0], [0], 1, wf⟩ j 0 : Int) = (n.val : Int)
      rw [hstart0, hwin0, h0]
      simp
    | ⟨1, _⟩ =>
      show ScatterDims.start ⟨[1], [0], [0], 1, wf⟩ j idx 1 + (ScatterDims.window ⟨[1], [0], [0], 1, wf⟩ j 1 : Int) = (c.val : Int)
      rw [hstart1, hwin1, h1]
      simp

/-- Operand `[N]`, indices `[K, 1]`, updates `[K]` (no window axis). -/
theorem scatterAdd_vec {N K w : Nat} (d : ScatterDims ⟨1, ![N]⟩ ⟨2, ![K, 1]⟩ ⟨1, ![K]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![K, 1]⟩ w) (u : (⟨1, ![K]⟩ : Shape).Idx → EReal) (n : Fin N) :
    Host.scatterAdd (F := Ideal) (φ := .f32) d x idx u (ix1 n)
      = x (ix1 n) + ∑ k ∈ Finset.univ.filter (fun k : Fin K => (idx (ix2 k 0)).toInt = (n.val : Int)), u (ix1 k) := by
  simp only [Host.scatterAdd, Ideal.hostScatterAdd_def, Ideal.hostScatterAdd]
  congr 1
  -- the updates landing on row `n` are the `k` whose word is `n`: reindex along `k ↦ [k]`
  refine Finset.sum_nbij' (fun j => j 0) (fun k => ix1 k) ?_ ?_ ?_ ?_ ?_
  · intro j hj
    exact Finset.mem_filter.2 ⟨Finset.mem_univ _, (lands_vec d huw hiw hsd hivd idx j n).1 (Finset.mem_filter.1 hj).2⟩
  · intro k hk
    exact Finset.mem_filter.2 ⟨Finset.mem_univ _, (lands_vec d huw hiw hsd hivd idx (ix1 k) n).2 (Finset.mem_filter.1 hk).2⟩
  · intro j _
    exact (eq_ix1 j).symm
  · intro k _
    rfl
  · intro j _
    exact congrArg u (eq_ix1 j)

/-- Operand `[N, C]`, indices `[K, 1]`, updates `[K, C]` (one window axis: the columns). -/
theorem scatterAdd_rows {N C K w : Nat} (d : ScatterDims ⟨2, ![N, C]⟩ ⟨2, ![K, 1]⟩ ⟨2, ![K, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![K, 1]⟩ w) (u : (⟨2, ![K, C]⟩ : Shape).Idx → EReal)
    (n : Fin N) (c : Fin C) :
    Host.scatterAdd (F := Ideal) (φ := .f32) d x idx u (ix2 n c)
      = x (ix2 n c) + ∑ k ∈ Finset.univ.filter (fun k : Fin K => (idx (ix2 k 0)).toInt = (n.val : Int)), u (ix2 k c) := by
  simp only [Host.scatterAdd, Ideal.hostScatterAdd_def, Ideal.hostScatterAdd]
  congr 1
  -- the updates landing on `(n, c)` are the `(k, c)` whose row's word is `n`: reindex along `k ↦ (k, c)`
  refine Finset.sum_nbij' (fun j => j 0) (fun k => ix2 k c) ?_ ?_ ?_ ?_ ?_
  · intro j hj
    exact Finset.mem_filter.2 ⟨Finset.mem_univ _, ((lands_rows d huw hiw hsd hivd idx j n c).1 (Finset.mem_filter.1 hj).2).1⟩
  · intro k hk
    exact Finset.mem_filter.2
      ⟨Finset.mem_univ _, (lands_rows d huw hiw hsd hivd idx (ix2 k c) n c).2 ⟨(Finset.mem_filter.1 hk).2, rfl⟩⟩
  · intro j hj
    have hc := ((lands_rows d huw hiw hsd hivd idx j n c).1 (Finset.mem_filter.1 hj).2).2
    show ix2 (j 0) c = j
    rw [← hc]
    exact (eq_ix2 j).symm
  · intro k _
    rfl
  · intro j hj
    have hc := ((lands_rows d huw hiw hsd hivd idx j n c).1 (Finset.mem_filter.1 hj).2).2
    show u j = u (ix2 (j 0) c)
    rw [← hc]
    exact congrArg u (eq_ix2 j)

end Cert.LibScatterRows

end
-- ==== Proof.KPure.lean ====
import proofs.«424055_j50130858279310_3_alg».proof.Proof.KDef
import proofs.«424055_j50130858279310_3_alg».proof.Proof.KTake
import proofs.«424055_j50130858279310_3_alg».proof.Proof.LibScatterRows
import Idealize.ShloMosaic.Lib.Pipeline.Value

/-!
  The kernel program's result term, read at an index: it is the loss computed from guarded endpoint reads
  (`Spec.outG`), the guards the validity bits of the source and destination words.
-/

noncomputable section

namespace Cert.KernelIdeal.KPure

open Idealize.ShloMosaic Idealize.ShloMosaic.ValueIdx Cert.KernelIdeal Cert.KernelIdeal.Gen

/-- The validity bits of edge `e`'s source and destination words. -/
def srcBit (ei : S2x8388608.Idx → BitVec 32) (e : Fin 8388608) : BitVec 1 := KDef.validV (KDef.srcV ei) (ix1 e)
def dstBit (ei : S2x8388608.Idx → BitVec 32) (e : Fin 8388608) : BitVec 1 := KDef.validV (KDef.dstV ei) (ix1 e)

/-- A pointwise map commutes with a change of layout, and a change of layout there and back is the identity: the
    contributions, laid back out per edge, are the pointwise map of the per-edge arrays. -/
private theorem contrib_cast (vx : S1048576x2.Idx → EReal) (px : S1048576x1.Idx → EReal) (ea : S8388608x2.Idx → EReal)
    (ei : S2x8388608.Idx → BitVec 32) :
    shapeCast S8388608x2 (KDef.contribFlat vx px ea ei) shapeCasts_S131072x128_S8388608x2
      = fun i => Spec.edgeTerm (KDef.takeV vx px (KDef.srcV ei) i) (KDef.takeV vx px (KDef.dstV ei) i) (ea i) := by
  funext i
  show Spec.edgeTerm
      (shapeCast S8388608x2 (shapeCast S131072x128 (KDef.takeV vx px (KDef.srcV ei)) shapeCasts_S8388608x2_S131072x128)
        shapeCasts_S131072x128_S8388608x2 i)
      (shapeCast S8388608x2 (shapeCast S131072x128 (KDef.takeV vx px (KDef.dstV ei)) shapeCasts_S8388608x2_S131072x128)
        shapeCasts_S131072x128_S8388608x2 i)
      (shapeCast S8388608x2 (shapeCast S131072x128 ea shapeCasts_S8388608x2_S131072x128)
        shapeCasts_S131072x128_S8388608x2 i) = _
  rw [shapeCast_shapeCast, shapeCast_shapeCast, shapeCast_shapeCast]

/-- The same for the counts. -/
private theorem cnt_cast (ea : S8388608x2.Idx → EReal) :
    shapeCast S8388608x2 (KDef.cntFlat ea) shapeCasts_S131072x128_S8388608x2 = fun i => Spec.cntTerm (ea i) := by
  funext i
  show Spec.cntTerm (shapeCast S8388608x2 (shapeCast S131072x128 ea shapeCasts_S8388608x2_S131072x128)
        shapeCasts_S131072x128_S8388608x2 i) = _
  rw [shapeCast_shapeCast]

/-- The column of start indices read at an edge is the edge's source word. -/
private theorem idxCol_apply (ei : S2x8388608.Idx → BitVec 32) (k : Fin 8388608) :
    broadcastInDim S8388608x1 ![0] bcast_S8388608_S8388608x1_0 (KDef.srcV ei) (ix2 k 0) = ei (ix2 0 k) := by
  rw [broadcastInDim_apply _ _ _ (ix2 k 0) (ix1 k) (fun a => by
    match a with
    | ⟨0, _⟩ => rfl)]
  exact KTake.srcV_apply ei k

/-- The update table at row `k`: its first two columns are the edge's contributions … -/
private theorem upd_left (vx : S1048576x2.Idx → EReal) (px : S1048576x1.Idx → EReal) (ea : S8388608x2.Idx → EReal)
    (ei : S2x8388608.Idx → BitVec 32) (k : Fin 8388608) (j : Fin 2) :
    concatenate S8388608x4 1 [⟨S8388608x2, shapeCast S8388608x2 (KDef.contribFlat vx px ea ei) shapeCasts_S131072x128_S8388608x2⟩,
      ⟨S8388608x2, shapeCast S8388608x2 (KDef.cntFlat ea) shapeCasts_S131072x128_S8388608x2⟩]
        concatenates_S8388608x2_S8388608x2_S8388608x4_d1 (ix2 k ⟨j.val, by omega⟩)
      = Spec.edgeAtG vx px ea ei (srcBit ei) (dstBit ei) k j := by
  rw [concatenate_pair_apply_left (t := S8388608x4) (s₁ := S8388608x2) (s₂ := S8388608x2) (1 : Fin 2) _ _ _ (ix2 k ⟨j.val, by omega⟩) rfl (ix2 k j) (fun b => by
    match b with
    | ⟨0, _⟩ => rfl
    | ⟨1, _⟩ => rfl)]
  rw [contrib_cast]
  show Spec.edgeTerm (KDef.takeV vx px (KDef.srcV ei) (ix2 k j)) (KDef.takeV vx px (KDef.dstV ei) (ix2 k j)) (ea (ix2 k j)) = _
  rw [KTake.takeV_apply, KTake.takeV_apply, KTake.srcV_apply, KTake.dstV_apply]
  rfl

/-- … and its last two the edge's counts. -/
private theorem upd_right (vx : S1048576x2.Idx → EReal) (px : S1048576x1.Idx → EReal) (ea : S8388608x2.Idx → EReal)
    (ei : S2x8388608.Idx → BitVec 32) (k : Fin 8388608) (j : Fin 2) :
    concatenate S8388608x4 1 [⟨S8388608x2, shapeCast S8388608x2 (KDef.contribFlat vx px ea ei) shapeCasts_S131072x128_S8388608x2⟩,
      ⟨S8388608x2, shapeCast S8388608x2 (KDef.cntFlat ea) shapeCasts_S131072x128_S8388608x2⟩]
        concatenates_S8388608x2_S8388608x2_S8388608x4_d1 (ix2 k ⟨2 + j.val, by omega⟩)
      = Spec.cntAt ea k j := by
  rw [concatenate_pair_apply_right (t := S8388608x4) (s₁ := S8388608x2) (s₂ := S8388608x2) (1 : Fin 2) _ _ _ (ix2 k ⟨2 + j.val, by omega⟩) rfl rfl (ix2 k j) (fun b hb => by
    match b, hb with
    | ⟨0, _⟩, _ => rfl
    | ⟨1, _⟩, hb => exact absurd rfl hb) (by show j.val + 2 = 2 + j.val; omega)]
  rw [cnt_cast]
  rfl

/-- The summed payload at row `n`: columns 0 and 1 the contributions in the two directions, columns 2 and 3 the counts. -/
theorem aggV_contrib (vx : S1048576x2.Idx → EReal) (px : S1048576x1.Idx → EReal) (ea : S8388608x2.Idx → EReal)
    (ei : S2x8388608.Idx → BitVec 32) (n : Fin 1048576) (j : Fin 2) :
    KDef.aggV vx px ea ei (ix2 n ⟨j.val, by omega⟩)
      = Spec.segSum ei (fun e => Spec.edgeAtG vx px ea ei (srcBit ei) (dstBit ei) e j) n := by
  unfold KDef.aggV
  rw [Cert.LibScatterRows.scatterAdd_rows _ rfl rfl rfl rfl]
  unfold Spec.segSum
  rw [Finset.filter_congr (fun k _ => by rw [idxCol_apply ei k])]
  exact congrArg₂ (· + ·) rfl (Finset.sum_congr rfl fun k _ => upd_left vx px ea ei k j)

theorem aggV_cnt (vx : S1048576x2.Idx → EReal) (px : S1048576x1.Idx → EReal) (ea : S8388608x2.Idx → EReal)
    (ei : S2x8388608.Idx → BitVec 32) (n : Fin 1048576) (j : Fin 2) :
    KDef.aggV vx px ea ei (ix2 n ⟨2 + j.val, by omega⟩) = Spec.segSum ei (fun e => Spec.cntAt ea e j) n := by
  unfold KDef.aggV
  rw [Cert.LibScatterRows.scatterAdd_rows _ rfl rfl rfl rfl]
  unfold Spec.segSum
  rw [Finset.filter_congr (fun k _ => by rw [idxCol_apply ei k])]
  exact congrArg₂ (· + ·) rfl (Finset.sum_congr rfl fun k _ => upd_right vx px ea ei k j)

/-- A node vector laid out for the second kernel and back is itself. -/
private theorem nflat_back (x : S1048576.Idx → EReal) :
    shapeCast S1048576 (KDef.nflat x) shapeCasts_S8192x128_S1048576 = x := shapeCast_shapeCast x _ _

/-- The pointwise node map of five laid-out node vectors, laid back out, is the pointwise map of the vectors. -/
private theorem node_cast (a b c d e : S1048576.Idx → EReal) :
    shapeCast S1048576 (fun i => Spec.nodeTerm (KDef.nflat a i) (KDef.nflat b i) (KDef.nflat c i) (KDef.nflat d i)
        (KDef.nflat e i)) shapeCasts_S8192x128_S1048576
      = fun m => Spec.nodeTerm (a m) (b m) (c m) (d m) (e m) := by
  funext m
  show Spec.nodeTerm (shapeCast S1048576 (KDef.nflat a) shapeCasts_S8192x128_S1048576 m)
      (shapeCast S1048576 (KDef.nflat b) shapeCasts_S8192x128_S1048576 m)
      (shapeCast S1048576 (KDef.nflat c) shapeCasts_S8192x128_S1048576 m)
      (shapeCast S1048576 (KDef.nflat d) shapeCasts_S8192x128_S1048576 m)
      (shapeCast S1048576 (KDef.nflat e) shapeCasts_S8192x128_S1048576 m) = _
  rw [nflat_back, nflat_back, nflat_back, nflat_back, nflat_back]

/-- A one-column table `[N, 1]` viewed as a vector reads row `n` at `n`. -/
private theorem colCast_apply {α : Type} (x : S1048576x1.Idx → α) (n : Fin 1048576) :
    shapeCast S1048576 x shapeCasts_S1048576x1_S1048576 (ix1 n) = x (ix2 n 0) :=
  shapeCast_apply x _ (ix1 n) (ix2 n 0) (by
    rw [Shape.rowMajor_val_one, Shape.rowMajor_val_two]
    show n.val * 1 + 0 = n.val
    omega)

/-- Column `c` of the sums, as a vector over the nodes, read at node `n`. -/
private theorem colVec_apply (agg : S1048576x4.Idx → EReal) (off : Fin 2 → Nat) (h : S1048576x4.Slices off S1048576x1)
    (n : Fin 1048576) (c : Fin 4) (h0 : off 0 = 0) (h1 : off 1 = c.val) :
    shapeCast S1048576 (extractStridedSlice S1048576x1 off agg h) shapeCasts_S1048576x1_S1048576 (ix1 n)
      = agg (ix2 n c) := by
  rw [colCast_apply]
  exact extractStridedSlice_apply off agg h (ix2 n 0) (ix2 n c) (fun a => by
    match a with
    | ⟨0, _⟩ => show n.val = off 0 + n.val; omega
    | ⟨1, _⟩ => show c.val = off 1 + 0; omega)

/-- The pressure term, as a vector over the nodes, read at node `n`. -/
private theorem pdVec_apply (px pp : S1048576x1.Idx → EReal) (dt : S_.Idx → EReal) (n : Fin 1048576) :
    shapeCast S1048576 (Host.divf (F := Ideal) (φ := .f32) (subf (F := Ideal) (φ := .f32) px pp)
        (broadcastInDim S1048576x1 ![] bcast_S_S1048576x1 dt)) shapeCasts_S1048576x1_S1048576 (ix1 n)
      = Spec.pdAt px pp dt n := by
  rw [colCast_apply]
  show Ideal.div (px (ix2 n 0) - pp (ix2 n 0)) (broadcastInDim S1048576x1 ![] bcast_S_S1048576x1 dt (ix2 n 0)) = _
  rw [broadcastInDim_apply _ _ dt (ix2 n 0) ix0 (fun a => a.elim0)]
  rfl

/-- THE KERNEL PROGRAM'S RESULT is the loss from guarded reads. -/
theorem result_eq (vx : S1048576x2.Idx → EReal) (px pp : S1048576x1.Idx → EReal) (dt : S_.Idx → EReal)
    (ea : S8388608x2.Idx → EReal) (ei : S2x8388608.Idx → BitVec 32) :
    KDef.result vx px pp dt ea ei = Spec.outG vx px pp dt ea ei (srcBit ei) (dstBit ei) := by
  funext i
  obtain ⟨n, rfl⟩ : ∃ n : Fin 1048576, i = ix2 n 0 := ⟨i 0, by
    funext a
    match a with
    | ⟨0, _⟩ => rfl
    | ⟨1, _⟩ => exact Fin.ext (Nat.lt_one_iff.1 (idx2_lt1 i))⟩
  have c0 := (colVec_apply (KDef.aggV vx px ea ei) ![0, 0] slices_S1048576x4_S1048576x1_0_0 n _ rfl rfl).trans
    (aggV_contrib vx px ea ei n 0)
  have c1 := (colVec_apply (KDef.aggV vx px ea ei) ![0, 1] slices_S1048576x4_S1048576x1_0_1 n _ rfl rfl).trans
    (aggV_contrib vx px ea ei n 1)
  have c2 := (colVec_apply (KDef.aggV vx px ea ei) ![0, 2] slices_S1048576x4_S1048576x1_0_2 n _ rfl rfl).trans
    (aggV_cnt vx px ea ei n 0)
  have c3 := (colVec_apply (KDef.aggV vx px ea ei) ![0, 3] slices_S1048576x4_S1048576x1_0_3 n _ rfl rfl).trans
    (aggV_cnt vx px ea ei n 1)
  unfold KDef.result
  rw [broadcastInDim_apply (s := S1048576) _ _ _ (ix2 n 0) (ix1 n) (fun a => by
    match a with
    | ⟨0, _⟩ => rfl)]
  unfold KDef.nodeFlat KDef.col0 KDef.col1 KDef.col2 KDef.col3 KDef.pdV
  rw [node_cast]
  show Spec.nodeTerm _ _ _ _ _ = _
  rw [c0, c1, c2, c3, pdVec_apply]
  rfl

end Cert.KernelIdeal.KPure

end
-- ==== Proof.RefEdge.lean ====
import proofs.«424055_j50130858279310_3_alg».proof.Proof.Gen.ReferenceIdeal.Read
import proofs.«424055_j50130858279310_3_alg».proof.Proof.Spec
import proofs.«424055_j50130858279310_3_alg».proof.Proof.LibPoint
import Idealize.ShloMosaic.Lib.Pipeline.Value

/-!
  The reference program's per-edge stages, read at an edge: the masked finite difference it sums in each direction is
  `Spec.edgeAt`, the widened mask it counts is `Spec.cntAt`, and the index vector it scatters by is row 0 of the index
  array. Each endpoint value is a gather of one element of `vp` at the pair (wrapped index word, direction).
-/

noncomputable section

namespace Cert.ReferenceIdeal.RefEdge

open Idealize.ShloMosaic Idealize.ShloMosaic.ValueIdx Cert.ReferenceIdeal Cert.ReferenceIdeal.Gen Cert.ReferenceIdeal.Read

/-! ## Index equations: the composed index functions of the layout stages, at an edge -/

/-- Row 0 of the index array at column `e`. -/
private theorem idx_row0 (e : Fin 8388608) : idx_main_v0 (idx_main_v1 (ix1 e)) = ix2 0 e := by
  funext a
  match a with
  | ⟨0, _⟩ => rfl
  | ⟨1, _⟩ => exact Fin.ext (Nat.mod_eq_of_lt e.isLt)

/-- Row 1 of the index array at column `e`. -/
private theorem idx_row1 (e : Fin 8388608) : idx_main_v2 (idx_main_v3 (ix1 e)) = ix2 1 e := by
  funext a
  match a with
  | ⟨0, _⟩ => rfl
  | ⟨1, _⟩ => exact Fin.ext (Nat.mod_eq_of_lt e.isLt)

/-- Column 0 of the offset array at row `e`. -/
private theorem idx_off0 (e : Fin 8388608) : idx_main_v6 (idx_main_v7 (ix1 e)) = ix2 e 0 := by
  funext a
  match a with
  | ⟨0, _⟩ => exact Fin.ext (Nat.div_one e.val)
  | ⟨1, _⟩ => rfl

/-- Column 1 of the offset array at row `e`. -/
private theorem idx_off1 (e : Fin 8388608) : idx_main_v10 (idx_main_v11 (ix1 e)) = ix2 e 1 := by
  funext a
  match a with
  | ⟨0, _⟩ => exact Fin.ext (Nat.div_one e.val)
  | ⟨1, _⟩ => rfl

/-- The scatter's index vector at edge `e` is the source word. -/
theorem src_word (x11 : S2x8388608.Idx → BitVec 32) (e : Fin 8388608) :
    val_main_v1 (F := Ideal) x11 (ix1 e) = x11 (ix2 0 e) := by
  rw [val_main_v1_apply, val_main_v0_apply, idx_row0]

/-- The destination word at edge `e`. -/
private theorem dst_word (x11 : S2x8388608.Idx → BitVec 32) (e : Fin 8388608) :
    val_main_v3 (F := Ideal) x11 (ix1 e) = x11 (ix2 1 e) := by
  rw [val_main_v3_apply, val_main_v2_apply, idx_row1]

/-- The mask of direction 0 at edge `e`: is the offset nonzero. -/
private theorem mask_x (x10 : S8388608x2.Idx → EReal) (e : Fin 8388608) :
    val_main_v9 (F := Ideal) x10 (ix1 e) = Spec.nz (x10 (ix2 e 0)) := by
  rw [val_main_v9_apply, val_main_v7_apply, val_main_v6_apply, idx_off0, val_main_v8_apply, val_main_cst_apply]
  rfl

/-- The mask of direction 1 at edge `e`. -/
private theorem mask_y (x10 : S8388608x2.Idx → EReal) (e : Fin 8388608) :
    val_main_v13 (F := Ideal) x10 (ix1 e) = Spec.nz (x10 (ix2 e 1)) := by
  rw [val_main_v13_apply, val_main_v11_apply, val_main_v10_apply, idx_off1, val_main_v12_apply, val_main_cst_0_apply]
  rfl

/-! ## The gathered table and the start indices

  Each endpoint value is one element of `vp`, gathered at the pair (wrapped index word, direction); the pair is a row
  of the concatenation of the wrapped-word column and the constant direction column. -/

/-- `vp` at node `n`, component `j`: the velocity component times the pressure. -/
private theorem vp_apply (x0 : S1048576x2.Idx → EReal) (x2 : S1048576x1.Idx → EReal) (n : Fin 1048576) (j : Fin 2) :
    val_main_v5 (F := Ideal) x0 x2 (ix2 n j) = Spec.vpAt x0 x2 n j := by
  have h4 : idx_main_v4 (ix2 n j) = ix2 n 0 := by
    funext a
    match a with
    | ⟨0, _⟩ => rfl
    | ⟨1, _⟩ => rfl
  rw [val_main_v5_apply, val_main_v4_apply, h4]
  rfl

/-- A clamped wrapped word is the row it names. -/
private theorem clamp_wrap (z : BitVec 32) :
    Cert.LibPoint.clampTo 1048576 (by decide) (Spec.wrapW z) = Spec.rowOf z := Fin.ext rfl

/-- The direction word 0 clamps to component 0. -/
private theorem clamp_zero : Cert.LibPoint.clampTo 2 (by decide) (0#32) = (0 : Fin 2) := Fin.ext (by decide)

/-- The direction word 1 clamps to component 1. -/
private theorem clamp_one : Cert.LibPoint.clampTo 2 (by decide) (1#32) = (1 : Fin 2) := Fin.ext (by decide)

/-- Direction 0, destination: the wrapped destination word. -/
private theorem wrap_dst_x (x11 : S2x8388608.Idx → BitVec 32) (e : Fin 8388608) :
    val_main_v18 (F := Ideal) x11 (ix1 e) = Spec.wrapW (x11 (ix2 1 e)) := by
  rw [val_main_v18_apply, val_main_v15_apply, val_main_v17_apply, dst_word, val_main_v14_apply, val_main_c_apply,
    val_main_v16_apply, val_main_c_1_apply]
  rfl

/-- Direction 0, destination: the one-column broadcast of the wrapped word, read at row `e`. -/
private theorem idx_col_dst_x (e : Fin 8388608) : idx_main_v21 (ix2 e 0) = ix1 e := by
  funext a
  match a with
  | ⟨0, _⟩ => rfl

/-- Direction 0, destination: the start indices' first column is the wrapped destination word. -/
private theorem start_dst_x_0 (x11 : S2x8388608.Idx → BitVec 32) (e : Fin 8388608) :
    val_main_v23 (F := Ideal) x11 (ix2 e 0) = Spec.wrapW (x11 (ix2 1 e)) := by
  unfold val_main_v23
  rw [concatenate_pair_apply_left (t := S8388608x2) (s₁ := S8388608x1) (s₂ := S8388608x1) 1 _ _ _
    (ix2 e (0 : Fin 2)) rfl (ix2 e (0 : Fin 1)) (fun b => match b with | ⟨0, _⟩ => rfl | ⟨1, _⟩ => rfl)]
  rw [val_main_v21_apply, idx_col_dst_x, wrap_dst_x]

/-- Direction 0, destination: the start indices' second column is the direction. -/
private theorem start_dst_x_1 (x11 : S2x8388608.Idx → BitVec 32) (e : Fin 8388608) :
    val_main_v23 (F := Ideal) x11 (ix2 e 1) = 0#32 := by
  unfold val_main_v23
  rw [concatenate_pair_apply_right (t := S8388608x2) (s₁ := S8388608x1) (s₂ := S8388608x1) 1 _ _ _
    (ix2 e (1 : Fin 2)) rfl rfl (ix2 e (0 : Fin 1))
    (fun b hb => match b, hb with | ⟨0, _⟩, _ => rfl | ⟨1, _⟩, hb => absurd rfl hb) rfl]
  rw [val_main_v22_apply, val_main_v20_apply, val_main_v19_apply, val_main_c_2_apply]

/-- Direction 0: the destination's endpoint value. -/
private theorem gather_dst_x (x0 : S1048576x2.Idx → EReal) (x2 : S1048576x1.Idx → EReal)
    (x11 : S2x8388608.Idx → BitVec 32) (e : Fin 8388608) :
    val_main_v24 (F := Ideal) x0 x2 x11 (ix1 e) = Spec.vpAt x0 x2 (Spec.rowOf (x11 (ix2 1 e))) 0 := by
  unfold val_main_v24
  rw [Cert.LibPoint.gather_point _ rfl rfl rfl rfl rfl (by decide) (by decide), start_dst_x_0, start_dst_x_1,
    clamp_wrap, clamp_zero, vp_apply]

/-- Direction 0, source: the wrapped source word. -/
private theorem wrap_src_x (x11 : S2x8388608.Idx → BitVec 32) (e : Fin 8388608) :
    val_main_v29 (F := Ideal) x11 (ix1 e) = Spec.wrapW (x11 (ix2 0 e)) := by
  rw [val_main_v29_apply, val_main_v26_apply, val_main_v28_apply, src_word, val_main_v25_apply, val_main_c_3_apply,
    val_main_v27_apply, val_main_c_4_apply]
  rfl

/-- Direction 0, source: the one-column broadcast of the wrapped word, read at row `e`. -/
private theorem idx_col_src_x (e : Fin 8388608) : idx_main_v32 (ix2 e 0) = ix1 e := by
  funext a
  match a with
  | ⟨0, _⟩ => rfl

/-- Direction 0, source: the start indices' first column is the wrapped source word. -/
private theorem start_src_x_0 (x11 : S2x8388608.Idx → BitVec 32) (e : Fin 8388608) :
    val_main_v34 (F := Ideal) x11 (ix2 e 0) = Spec.wrapW (x11 (ix2 0 e)) := by
  unfold val_main_v34
  rw [concatenate_pair_apply_left (t := S8388608x2) (s₁ := S8388608x1) (s₂ := S8388608x1) 1 _ _ _
    (ix2 e (0 : Fin 2)) rfl (ix2 e (0 : Fin 1)) (fun b => match b with | ⟨0, _⟩ => rfl | ⟨1, _⟩ => rfl)]
  rw [val_main_v32_apply, idx_col_src_x, wrap_src_x]

/-- Direction 0, source: the start indices' second column is the direction. -/
private theorem start_src_x_1 (x11 : S2x8388608.Idx → BitVec 32) (e : Fin 8388608) :
    val_main_v34 (F := Ideal) x11 (ix2 e 1) = 0#32 := by
  unfold val_main_v34
  rw [concatenate_pair_apply_right (t := S8388608x2) (s₁ := S8388608x1) (s₂ := S8388608x1) 1 _ _ _
    (ix2 e (1 : Fin 2)) rfl rfl (ix2 e (0 : Fin 1))
    (fun b hb => match b, hb with | ⟨0, _⟩, _ => rfl | ⟨1, _⟩, hb => absurd rfl hb) rfl]
  rw [val_main_v33_apply, val_main_v31_apply, val_main_v30_apply, val_main_c_5_apply]

/-- Direction 0: the source's endpoint value. -/
private theorem gather_src_x (x0 : S1048576x2.Idx → EReal) (x2 : S1048576x1.Idx → EReal)
    (x11 : S2x8388608.Idx → BitVec 32) (e : Fin 8388608) :
    val_main_v35 (F := Ideal) x0 x2 x11 (ix1 e) = Spec.vpAt x0 x2 (Spec.rowOf (x11 (ix2 0 e))) 0 := by
  unfold val_main_v35
  rw [Cert.LibPoint.gather_point _ rfl rfl rfl rfl rfl (by decide) (by decide), start_src_x_0, start_src_x_1,
    clamp_wrap, clamp_zero, vp_apply]

/-- Direction 1, destination: the wrapped destination word. -/
private theorem wrap_dst_y (x11 : S2x8388608.Idx → BitVec 32) (e : Fin 8388608) :
    val_main_v56 (F := Ideal) x11 (ix1 e) = Spec.wrapW (x11 (ix2 1 e)) := by
  rw [val_main_v56_apply, val_main_v53_apply, val_main_v55_apply, dst_word, val_main_v52_apply, val_main_c_11_apply,
    val_main_v54_apply, val_main_c_12_apply]
  rfl

/-- Direction 1, destination: the one-column broadcast of the wrapped word, read at row `e`. -/
private theorem idx_col_dst_y (e : Fin 8388608) : idx_main_v59 (ix2 e 0) = ix1 e := by
  funext a
  match a with
  | ⟨0, _⟩ => rfl

/-- Direction 1, destination: the start indices' first column is the wrapped destination word. -/
private theorem start_dst_y_0 (x11 : S2x8388608.Idx → BitVec 32) (e : Fin 8388608) :
    val_main_v61 (F := Ideal) x11 (ix2 e 0) = Spec.wrapW (x11 (ix2 1 e)) := by
  unfold val_main_v61
  rw [concatenate_pair_apply_left (t := S8388608x2) (s₁ := S8388608x1) (s₂ := S8388608x1) 1 _ _ _
    (ix2 e (0 : Fin 2)) rfl (ix2 e (0 : Fin 1)) (fun b => match b with | ⟨0, _⟩ => rfl | ⟨1, _⟩ => rfl)]
  rw [val_main_v59_apply, idx_col_dst_y, wrap_dst_y]

/-- Direction 1, destination: the start indices' second column is the direction. -/
private theorem start_dst_y_1 (x11 : S2x8388608.Idx → BitVec 32) (e : Fin 8388608) :
    val_main_v61 (F := Ideal) x11 (ix2 e 1) = 1#32 := by
  unfold val_main_v61
  rw [concatenate_pair_apply_right (t := S8388608x2) (s₁ := S8388608x1) (s₂ := S8388608x1) 1 _ _ _
    (ix2 e (1 : Fin 2)) rfl rfl (ix2 e (0 : Fin 1))
    (fun b hb => match b, hb with | ⟨0, _⟩, _ => rfl | ⟨1, _⟩, hb => absurd rfl hb) rfl]
  rw [val_main_v60_apply, val_main_v58_apply, val_main_v57_apply, val_main_c_13_apply]

/-- Direction 1: the destination's endpoint value. -/
private theorem gather_dst_y (x0 : S1048576x2.Idx → EReal) (x2 : S1048576x1.Idx → EReal)
    (x11 : S2x8388608.Idx → BitVec 32) (e : Fin 8388608) :
    val_main_v62 (F := Ideal) x0 x2 x11 (ix1 e) = Spec.vpAt x0 x2 (Spec.rowOf (x11 (ix2 1 e))) 1 := by
  unfold val_main_v62
  rw [Cert.LibPoint.gather_point _ rfl rfl rfl rfl rfl (by decide) (by decide), start_dst_y_0, start_dst_y_1,
    clamp_wrap, clamp_one, vp_apply]

/-- Direction 1, source: the wrapped source word. -/
private theorem wrap_src_y (x11 : S2x8388608.Idx → BitVec 32) (e : Fin 8388608) :
    val_main_v67 (F := Ideal) x11 (ix1 e) = Spec.wrapW (x11 (ix2 0 e)) := by
  rw [val_main_v67_apply, val_main_v64_apply, val_main_v66_apply, src_word, val_main_v63_apply, val_main_c_14_apply,
    val_main_v65_apply, val_main_c_15_apply]
  rfl

/-- Direction 1, source: the one-column broadcast of the wrapped word, read at row `e`. -/
private theorem idx_col_src_y (e : Fin 8388608) : idx_main_v70 (ix2 e 0) = ix1 e := by
  funext a
  match a with
  | ⟨0, _⟩ => rfl

/-- Direction 1, source: the start indices' first column is the wrapped source word. -/
private theorem start_src_y_0 (x11 : S2x8388608.Idx → BitVec 32) (e : Fin 8388608) :
    val_main_v72 (F := Ideal) x11 (ix2 e 0) = Spec.wrapW (x11 (ix2 0 e)) := by
  unfold val_main_v72
  rw [concatenate_pair_apply_left (t := S8388608x2) (s₁ := S8388608x1) (s₂ := S8388608x1) 1 _ _ _
    (ix2 e (0 : Fin 2)) rfl (ix2 e (0 : Fin 1)) (fun b => match b with | ⟨0, _⟩ => rfl | ⟨1, _⟩ => rfl)]
  rw [val_main_v70_apply, idx_col_src_y, wrap_src_y]

/-- Direction 1, source: the start indices' second column is the direction. -/
private theorem start_src_y_1 (x11 : S2x8388608.Idx → BitVec 32) (e : Fin 8388608) :
    val_main_v72 (F := Ideal) x11 (ix2 e 1) = 1#32 := by
  unfold val_main_v72
  rw [concatenate_pair_apply_right (t := S8388608x2) (s₁ := S8388608x1) (s₂ := S8388608x1) 1 _ _ _
    (ix2 e (1 : Fin 2)) rfl rfl (ix2 e (0 : Fin 1))
    (fun b hb => match b, hb with | ⟨0, _⟩, _ => rfl | ⟨1, _⟩, hb => absurd rfl hb) rfl]
  rw [val_main_v71_apply, val_main_v69_apply, val_main_v68_apply, val_main_c_16_apply]

/-- Direction 1: the source's endpoint value. -/
private theorem gather_src_y (x0 : S1048576x2.Idx → EReal) (x2 : S1048576x1.Idx → EReal)
    (x11 : S2x8388608.Idx → BitVec 32) (e : Fin 8388608) :
    val_main_v73 (F := Ideal) x0 x2 x11 (ix1 e) = Spec.vpAt x0 x2 (Spec.rowOf (x11 (ix2 0 e))) 1 := by
  unfold val_main_v73
  rw [Cert.LibPoint.gather_point _ rfl rfl rfl rfl rfl (by decide) (by decide), start_src_y_0, start_src_y_1,
    clamp_wrap, clamp_one, vp_apply]

/-! ## The summands -/

/-- The offset of direction 0 at edge `e`, as the divisor's stage reads it. -/
private theorem off_x (x10 : S8388608x2.Idx → EReal) (e : Fin 8388608) :
    val_main_v38 (F := Ideal) x10 (ix1 e) = x10 (ix2 e 0) := by
  rw [val_main_v38_apply, val_main_v37_apply]
  exact congrArg x10 (idx_off0 e)

/-- The offset of direction 1 at edge `e`, as the divisor's stage reads it. -/
private theorem off_y (x10 : S8388608x2.Idx → EReal) (e : Fin 8388608) :
    val_main_v76 (F := Ideal) x10 (ix1 e) = x10 (ix2 e 1) := by
  rw [val_main_v76_apply, val_main_v75_apply]
  exact congrArg x10 (idx_off1 e)

/-- The summand of direction 0 at edge `e`. -/
theorem contrib_x (x0 : S1048576x2.Idx → EReal) (x2 : S1048576x1.Idx → EReal) (x10 : S8388608x2.Idx → EReal)
    (x11 : S2x8388608.Idx → BitVec 32) (e : Fin 8388608) :
    val_main_v41 (F := Ideal) x0 x2 x10 x11 (ix1 e) = Spec.edgeAt x0 x2 x10 x11 e 0 := by
  rw [val_main_v41_apply, val_main_v40_apply, val_main_v36_apply, val_main_v39_apply, mask_x, gather_dst_x, gather_src_x,
    off_x, val_main_call0_v1_apply, val_main_call0_v0_apply, val_main_cst_6_apply, val_main_call1_v1_apply,
    val_main_call1_v0_apply, val_main_cst_7_apply]
  rfl

/-- The summand of direction 1 at edge `e`. -/
theorem contrib_y (x0 : S1048576x2.Idx → EReal) (x2 : S1048576x1.Idx → EReal) (x10 : S8388608x2.Idx → EReal)
    (x11 : S2x8388608.Idx → BitVec 32) (e : Fin 8388608) :
    val_main_v79 (F := Ideal) x0 x2 x10 x11 (ix1 e) = Spec.edgeAt x0 x2 x10 x11 e 1 := by
  rw [val_main_v79_apply, val_main_v78_apply, val_main_v74_apply, val_main_v77_apply, mask_y, gather_dst_y, gather_src_y,
    off_y, val_main_call2_v1_apply, val_main_call2_v0_apply, val_main_cst_17_apply, val_main_call3_v1_apply,
    val_main_call3_v0_apply, val_main_cst_18_apply]
  rfl

/-! ## The counted masks -/

/-- The counted mask of direction 0 at edge `e`. -/
theorem cnt_x (x10 : S8388608x2.Idx → EReal) (e : Fin 8388608) :
    val_main_v45 (F := Ideal) x10 (ix1 e) = Spec.cntAt x10 e 0 := by
  rw [val_main_v45_apply, mask_x]
  rfl

/-- The counted mask of direction 1 at edge `e`. -/
theorem cnt_y (x10 : S8388608x2.Idx → EReal) (e : Fin 8388608) :
    val_main_v83 (F := Ideal) x10 (ix1 e) = Spec.cntAt x10 e 1 := by
  rw [val_main_v83_apply, mask_y]
  rfl

end Cert.ReferenceIdeal.RefEdge

end
-- ==== Proof.RefValue.lean ====
import proofs.«424055_j50130858279310_3_alg».proof.Proof.Gen.ReferenceIdeal.Read
import proofs.«424055_j50130858279310_3_alg».proof.Proof.Spec
import proofs.«424055_j50130858279310_3_alg».proof.Proof.RefEdge
import proofs.«424055_j50130858279310_3_alg».proof.Proof.LibScatterRows
import Idealize.ShloMosaic.Lib.Pipeline.Value

/-!
  The reference program's result, read at an index, is the loss `Spec.out` of its argument arrays.
-/

noncomputable section

namespace Cert.ReferenceIdeal.RefValue

open Idealize.ShloMosaic Idealize.ShloMosaic.ValueIdx Cert.ReferenceIdeal Cert.ReferenceIdeal.Gen Cert.ReferenceIdeal.Read

/-- A scatter-add of the program's shape, from a zero operand, by a column whose word at edge `k` is the source word,
    of updates `f`, read at node `n`: the sum of `f` over the edges of `n`. -/
private theorem scatter_segSum (x11 : S2x8388608.Idx → BitVec 32) (z : S1048576.Idx → EReal)
    (col : S8388608x1.Idx → BitVec 32) (u : S8388608.Idx → EReal) (f : Fin 8388608 → EReal)
    (hz : ∀ i, z i = Spec.zeroW) (hc : ∀ k : Fin 8388608, col (ix2 k 0) = x11 (ix2 0 k))
    (hu : ∀ k : Fin 8388608, u (ix1 k) = f k) (n : Fin 1048576) :
    Host.scatterAdd (F := Ideal) (φ := .f32) scatter_S1048576_S8388608x1_S8388608_n_0_0_1 z col u (ix1 n)
      = Spec.segSum x11 f n := by
  rw [Cert.LibScatterRows.scatterAdd_vec scatter_S1048576_S8388608x1_S8388608_n_0_0_1 rfl rfl rfl rfl, hz]
  unfold Spec.segSum
  simp only [hc, hu]

theorem val_eq_spec (x0 : S1048576x2.Idx → EReal) (x2 x3 : S1048576x1.Idx → EReal) (x9 : S_.Idx → EReal)
    (x10 : S8388608x2.Idx → EReal) (x11 : S2x8388608.Idx → BitVec 32) :
    val_main_v95 (F := Ideal) x0 x2 x3 x9 x10 x11 = Spec.out x0 x2 x3 x9 x10 x11 := by
  funext i
  obtain ⟨n, rfl⟩ : ∃ n : Fin 1048576, i = ix2 n 0 := by
    have h1 : (i 1).val < 1 := (i 1).isLt
    exact ⟨i 0, (eq_ix2 i).trans (congrArg (ix2 (i 0)) (Fin.ext (by show (i 1).val = 0; omega)))⟩
  have e91 : idx_main_v91 (ix2 n 0) = ix1 n := funext fun a => Fin.ext (by match a with | ⟨0, _⟩ => rfl)
  have ecol : ∀ k : Fin 8388608, idx_main_v43 (ix2 k 0) = ix1 k := fun k =>
    funext fun a => Fin.ext (by match a with | ⟨0, _⟩ => rfl)
  have c43 : ∀ k : Fin 8388608, val_main_v43 (F := Ideal) x11 (ix2 k 0) = x11 (ix2 0 k) := fun k => by
    rw [val_main_v43_apply, ecol, RefEdge.src_word]
  have c47 : ∀ k : Fin 8388608, val_main_v47 (F := Ideal) x11 (ix2 k 0) = x11 (ix2 0 k) := fun k => by
    rw [val_main_v47_apply, show idx_main_v47 (ix2 k 0) = ix1 k from ecol k, RefEdge.src_word]
  have c81 : ∀ k : Fin 8388608, val_main_v81 (F := Ideal) x11 (ix2 k 0) = x11 (ix2 0 k) := fun k => by
    rw [val_main_v81_apply, show idx_main_v81 (ix2 k 0) = ix1 k from ecol k, RefEdge.src_word]
  have c85 : ∀ k : Fin 8388608, val_main_v85 (F := Ideal) x11 (ix2 k 0) = x11 (ix2 0 k) := fun k => by
    rw [val_main_v85_apply, show idx_main_v85 (ix2 k 0) = ix1 k from ecol k, RefEdge.src_word]
  -- the four scatter-adds, read at node `n`, are the four sums over the edges of `n`
  have s44 : val_main_v44 (F := Ideal) x0 x2 x10 x11 (ix1 n)
      = Spec.segSum x11 (fun e => Spec.edgeAt x0 x2 x10 x11 e 0) n :=
    scatter_segSum x11 (val_main_v42 (F := Ideal)) (val_main_v43 (F := Ideal) x11)
      (val_main_v41 (F := Ideal) x0 x2 x10 x11) _ (fun j => by rw [val_main_v42_apply, val_main_cst_8_apply]; rfl)
      c43 (fun k => RefEdge.contrib_x x0 x2 x10 x11 k) n
  have s48 : val_main_v48 (F := Ideal) x10 x11 (ix1 n) = Spec.segSum x11 (fun e => Spec.cntAt x10 e 0) n :=
    scatter_segSum x11 (val_main_v46 (F := Ideal)) (val_main_v47 (F := Ideal) x11)
      (val_main_v45 (F := Ideal) x10) _ (fun j => by rw [val_main_v46_apply, val_main_cst_9_apply]; rfl)
      c47 (fun k => RefEdge.cnt_x x10 k) n
  have s82 : val_main_v82 (F := Ideal) x0 x2 x10 x11 (ix1 n)
      = Spec.segSum x11 (fun e => Spec.edgeAt x0 x2 x10 x11 e 1) n :=
    scatter_segSum x11 (val_main_v80 (F := Ideal)) (val_main_v81 (F := Ideal) x11)
      (val_main_v79 (F := Ideal) x0 x2 x10 x11) _ (fun j => by rw [val_main_v80_apply, val_main_cst_19_apply]; rfl)
      c81 (fun k => RefEdge.contrib_y x0 x2 x10 x11 k) n
  have s86 : val_main_v86 (F := Ideal) x10 x11 (ix1 n) = Spec.segSum x11 (fun e => Spec.cntAt x10 e 1) n :=
    scatter_segSum x11 (val_main_v84 (F := Ideal)) (val_main_v85 (F := Ideal) x11)
      (val_main_v83 (F := Ideal) x10) _ (fun j => by rw [val_main_v84_apply, val_main_cst_20_apply]; rfl)
      c85 (fun k => RefEdge.cnt_y x10 k) n
  rw [val_main_v95_apply, val_main_v91_apply, val_main_v90_apply, val_main_v51_apply, val_main_v89_apply,
    val_main_v50_apply, val_main_v88_apply, val_main_v49_apply, val_main_v87_apply, val_main_cst_10_apply,
    val_main_cst_21_apply, val_main_v94_apply, val_main_v92_apply, val_main_v93_apply, e91, s44, s48, s82, s86]
  simp only [Ideal.addf_def, Ideal.hostDivf_def, Ideal.maximumf_def, Ideal.subf_def, Ideal.ofBits_def]
  unfold Spec.out Spec.nodeTerm Spec.pdAt
  rfl

end Cert.ReferenceIdeal.RefValue

end
-- ==== Proof.PreDecode.lean ====
import proofs.«424055_j50130858279310_3_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value

/-!
  What the precondition says of the destination words: where the printed predicate is all ones, every word of row 1 of
  the index array, read as a signed integer, is a row of the node table (`0 ≤ · < 1048576`).
-/

noncomputable section

namespace Cert.PreDecode

open Idealize.ShloMosaic Idealize.ShloMosaic.ValueIdx Cert.Pre_finite_inputs

/-- The scalar shape has one index. -/
private instance : Subsingleton S_.Idx := ⟨fun _ _ => funext fun d => d.elim0⟩

/-- Row 1 of the index array, flattened: its word at position `e` is the array's word at row 1, column `e`. The flattening
    keeps the row-major position (`0 * 8388608 + e = e`) and the slice shifts the row coordinate by its offset 1. -/
private theorem row_one_apply (a11 : IVec S2x8388608 32) (e : Fin 8388608) :
    shapeCast S8388608 (extractStridedSlice S1x8388608 ![1, 0] a11 Facts.slices_S2x8388608_S1x8388608_1_0)
      Facts.shapeCasts_S1x8388608_S8388608 (ix1 e) = a11 (ix2 1 e) := by
  refine (shapeCast_apply _ _ (ix1 e) (ix2 0 e) ?_).trans ?_
  · rw [Shape.rowMajor_val_one, Shape.rowMajor_val_two]
    show 0 * 8388608 + e.val = e.val
    omega
  · refine extractStridedSlice_apply _ _ _ (ix2 0 e) (ix2 1 e) ?_
    intro a
    match a with
    | ⟨0, _⟩ => rfl
    | ⟨1, _⟩ => show e.val = 0 + e.val; omega

theorem dst_range {F : FTy → Type} [FloatOps F] (a0 a1 : FVec F S1048576x2 .f32) (a2 a3 a4 a5 : FVec F S1048576x1 .f32)
    (a6 a7 a8 a9 : FVec F S_ .f32) (a10 : FVec F S8388608x2 .f32) (a11 : IVec S2x8388608 32)
    (h : Cert.Pre_finite_inputs.fn (F := F) a0 a1 a2 a3 a4 a5 a6 a7 a8 a9 a10 a11 = (fun _ => 1#1)) (e : Fin 8388608) :
    0 ≤ (a11 (ix2 1 e)).toInt ∧ (a11 (ix2 1 e)).toInt < 1048576 := by
  -- the predicate's one word is a conjunction whose last conjunct is the and-reduction of the range test over row 1
  have h0 : IntOp.andi _ _ = 1#1 := congrFun h ix0
  have h1 := (IntOp.andi_eq_one.1 h0).2
  -- an and-reduction that is 1 met a 1 at every position, here position `e`
  have h2 := Host.reduce_andi_all _ _ _ _ _ h1 (ix1 e)
  obtain ⟨hge, hlt⟩ := IntOp.andi_eq_one.1 h2
  -- the two signed comparisons against the constants 0 and 1048576, read as integer inequalities
  have hge' : (0#32 : BitVec 32).toInt ≤ _ := IntOp.cmpi_sge.1 hge
  have hlt' : _ < (1048576#32 : BitVec 32).toInt := IntOp.cmpi_slt.1 hlt
  rw [row_one_apply a11 e] at hge' hlt'
  rw [show (0#32 : BitVec 32).toInt = 0 from by decide] at hge'
  rw [show (1048576#32 : BitVec 32).toInt = 1048576 from by decide] at hlt'
  exact ⟨hge', hlt'⟩

end Cert.PreDecode

end
-- ==== Proof.lean ====
/-
  A kernel that computes a graph's finite-difference loss in two passes — a per-edge pass (each edge's masked
  finite difference of `vp = v · p` between its endpoints, and its count, in both directions at once) and a per-node pass
  (the two means and the pressure term) around one scatter-add of the four columns — against the reference that computes
  each direction by itself. Both compute `Spec.out`: at node `n`,
  `S n 0 / max (C n 0) 1 + S n 1 / max (C n 1) 1 + (p n − p' n) / dt`, `S` and `C` the sums of the edges' contributions and
  counts over the edges whose source word is `n`.

  The two programs read an endpoint's row of `vp` differently where the index word names no row: the reference clamps the
  word into the table, the kernel's read returns a filler. An edge whose SOURCE word names no row is summed into no node by
  either program, so that difference never reaches the result (`Spec.outG_eq_out`); a DESTINATION word is a row of the
  table by the precondition (`PreDecode.dst_range`). No float law beyond the programs' own operations is used, so
  finiteness is never opened.

  The kernel program's run with its result named is `ValRun.run_val`; its result buffer read back through the run is
  `KTerm.W8_result`, that term at an index `KPure.result_eq`; the reference's run and its stages are the generated ones,
  read at an index in `RefEdge` and `RefValue`.
-/
import proofs.«424055_j50130858279310_3_alg».proof.Defs
import proofs.«424055_j50130858279310_3_alg».proof.Proof.Gen.Kernel.Frame
import proofs.«424055_j50130858279310_3_alg».proof.Proof.Gen.KernelIdeal.Frame
import proofs.«424055_j50130858279310_3_alg».proof.Proof.Gen.ReferenceIdeal
import proofs.«424055_j50130858279310_3_alg».proof.Proof.Gen.Pre_finite_inputs
import proofs.«424055_j50130858279310_3_alg».proof.Proof.Gen.ReferenceIdeal.Run
import proofs.«424055_j50130858279310_3_alg».proof.Proof.Gen.ReferenceIdeal.Read
import proofs.«424055_j50130858279310_3_alg».proof.Proof.Spec
import proofs.«424055_j50130858279310_3_alg».proof.Proof.KRun
import proofs.«424055_j50130858279310_3_alg».proof.Proof.KTerm
import proofs.«424055_j50130858279310_3_alg».proof.Proof.KTake
import proofs.«424055_j50130858279310_3_alg».proof.Proof.KPure
import proofs.«424055_j50130858279310_3_alg».proof.Proof.RefValue
import proofs.«424055_j50130858279310_3_alg».proof.Proof.PreDecode
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with `Spec.out` of the (agreeing) argument arrays in their result buffers. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ⟨(h c).1.trans ?_, (h c).2⟩)
      (Cert.KernelIdeal.ValRun.run_val (F := Ideal) m ρ)
    rw [Cert.KernelIdeal.KTerm.W8_result, Cert.KernelIdeal.KPure.result_eq]
    have hd := Cert.PreDecode.dst_range (F := Ideal) _ _ _ _ _ _ _ _ _ _ _ _ (hpre c)
    refine Cert.Spec.outG_eq_out _ _ _ _ _ _ _ _ (fun e => ?_) (fun e h0 h1 => ?_)
    · exact Cert.KernelIdeal.KTake.validV_eq_one _ e
        (by rw [Cert.KernelIdeal.KTake.dstV_apply]; exact (hd e).1) (by rw [Cert.KernelIdeal.KTake.dstV_apply]; exact (hd e).2)
    · exact Cert.KernelIdeal.KTake.validV_eq_one _ e
        (by rw [Cert.KernelIdeal.KTake.srcV_apply]; exact h0) (by rw [Cert.KernelIdeal.KTake.srcV_apply]; exact h1)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v95_eq, Cert.ReferenceIdeal.RefValue.val_eq_spec]
    obtain ⟨e0, -, e2, e3, -, -, -, -, -, e9, e10, e11⟩ := hagree c
    rw [e0, e2, e3, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
